-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S14336x4096 : Shape := ⟨2, ![14336, 4096]⟩
abbrev S14336x64 : Shape := ⟨2, ![14336, 64]⟩
abbrev S4096x14336 : Shape := ⟨2, ![4096, 14336]⟩
abbrev S4096x224 : Shape := ⟨2, ![4096, 224]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S14336x64 : S_.BroadcastsInDim S14336x64 (![] : Fin 0 → Fin S14336x64.rank)
  reducesTo_S14336x64_S_d0_1 : S14336x64.ReducesTo [0, 1] S_
  bcast_S_S4096x224 : S_.BroadcastsInDim S4096x224 (![] : Fin 0 → Fin S4096x224.rank)
  reducesTo_S4096x224_S_d0_1 : S4096x224.ReducesTo [0, 1] S_
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn_part2 {F : FTy → Type} [FloatOps F] (main_arg5 : IVec S4096x14336 32) (main_v32 : IVec S_ 1) (main_c_12 : IVec S_ 32) : IVec S_ 1 :=
  let main_v33 : IVec S4096x14336 32 := broadcastInDim S4096x14336 ![] bcast_S_S4096x14336 main_c_12
  let main_v34 : IVec S4096x14336 1 := cmpi .sge main_arg5 main_v33
  let main_c_13 : IVec S_ 32 := constantI S_ 32 16#32
  let main_v35 : IVec S4096x14336 32 := broadcastInDim S4096x14336 ![] bcast_S_S4096x14336 main_c_13
  let main_v36 : IVec S4096x14336 1 := cmpi .slt main_arg5 main_v35
  let main_v37 : IVec S4096x14336 1 := andi main_v34 main_v36
  let main_c_14 : IVec S_ 1 := constantI S_ 1 1#1
  let main_v38 : IVec S_ 1 := (fun x v => Host.reduce IntOp.andi x v reducesTo_S4096x14336_S_d0_1 h_S_) main_v37 main_c_14
  let main_v39 : IVec S_ 1 := andi main_v32 main_v38
  main_v39

def fn_part1 {F : FTy → Type} [FloatOps F] (main_arg1 : IVec S14336x4096 32) (main_arg3 : IVec S14336x4096 32) (main_arg5 : IVec S4096x14336 32) (main_v13 : IVec S_ 1) (main_v16 : IVec S4096x224 1) : IVec S_ 1 :=
  let main_c_5 : IVec S_ 1 := constantI S_ 1 1#1
  let main_v17 : IVec S_ 1 := (fun x v => Host.reduce IntOp.andi x v reducesTo_S4096x224_S_d0_1 h_S_) main_v16 main_c_5
  let main_v18 : IVec S_ 1 := andi main_v13 main_v17
  let main_c_6 : IVec S_ 32 := constantI S_ 32 0#32
  let main_v19 : IVec S14336x4096 32 := broadcastInDim S14336x4096 ![] bcast_S_S14336x4096 main_c_6
  let main_v20 : IVec S14336x4096 1 := cmpi .sge main_arg1 main_v19
  let main_c_7 : IVec S_ 32 := constantI S_ 32 16#32
  let main_v21 : IVec S14336x4096 32 := broadcastInDim S14336x4096 ![] bcast_S_S14336x4096 main_c_7
  let main_v22 : IVec S14336x4096 1 := cmpi .slt main_arg1 main_v21
  let main_v23 : IVec S14336x4096 1 := andi main_v20 main_v22
  let main_c_8 : IVec S_ 1 := constantI S_ 1 1#1
  let main_v24 : IVec S_ 1 := (fun x v => Host.reduce IntOp.andi x v reducesTo_S14336x4096_S_d0_1 h_S_) main_v23 main_c_8
  let main_v25 : IVec S_ 1 := andi main_v18 main_v24
  let main_c_9 : IVec S_ 32 := constantI S_ 32 0#32
  let main_v26 : IVec S14336x4096 32 := broadcastInDim S14336x4096 ![] bcast_S_S14336x4096 main_c_9
  let main_v27 : IVec S14336x4096 1 := cmpi .sge main_arg3 main_v26
  let main_c_10 : IVec S_ 32 := constantI S_ 32 16#32
  let main_v28 : IVec S14336x4096 32 := broadcastInDim S14336x4096 ![] bcast_S_S14336x4096 main_c_10
  let main_v29 : IVec S14336x4096 1 := cmpi .slt main_arg3 main_v28
  let main_v30 : IVec S14336x4096 1 := andi main_v27 main_v29
  let main_c_11 : IVec S_ 1 := constantI S_ 1 1#1
  let main_v31 : IVec S_ 1 := (fun x v => Host.reduce IntOp.andi x v reducesTo_S14336x4096_S_d0_1 h_S_) main_v30 main_c_11
  let main_v32 : IVec S_ 1 := andi main_v25 main_v31
  let main_c_12 : IVec S_ 32 := constantI S_ 32 0#32
  fn_part2 (F := F) main_arg5 main_v32 main_c_12

def fn {F : FTy → Type} [FloatOps F] (main_arg0 : FVec F S2048x4096 .f32) (main_arg1 : IVec S14336x4096 32) (main_arg2 : FVec F S14336x64 .f32) (main_arg3 : IVec S14336x4096 32) (main_arg4 : FVec F S14336x64 .f32) (main_arg5 : IVec S4096x14336 32) (main_arg6 : FVec F S4096x224 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S14336x64 .f32 := Host.absf main_arg2
  let main_cst_0 : FVec F S_ .f32 := constant S_ .f32 0x7F800000#32
  let main_v5 : FVec F S14336x64 .f32 := broadcastInDim S14336x64 ![] bcast_S_S14336x64 main_cst_0
  let main_v6 : IVec S14336x64 1 := cmpf .olt main_v4 main_v5
  let main_c_1 : IVec S_ 1 := constantI S_ 1 1#1
  let main_v7 : IVec S_ 1 := (fun x v => Host.reduce IntOp.andi x v reducesTo_S14336x64_S_d0_1 h_S_) main_v6 main_c_1
  let main_v8 : IVec S_ 1 := andi main_v3 main_v7
  let main_v9 : FVec F S14336x64 .f32 := Host.absf main_arg4
  let main_cst_2 : FVec F S_ .f32 := constant S_ .f32 0x7F800000#32
  let main_v10 : FVec F S14336x64 .f32 := broadcastInDim S14336x64 ![] bcast_S_S14336x64 main_cst_2
  let main_v11 : IVec S14336x64 1 := cmpf .olt main_v9 main_v10
  let main_c_3 : IVec S_ 1 := constantI S_ 1 1#1
  let main_v12 : IVec S_ 1 := (fun x v => Host.reduce IntOp.andi x v reducesTo_S14336x64_S_d0_1 h_S_) main_v11 main_c_3
  let main_v13 : IVec S_ 1 := andi main_v8 main_v12
  let main_v14 : FVec F S4096x224 .f32 := Host.absf main_arg6
  let main_cst_4 : FVec F S_ .f32 := constant S_ .f32 0x7F800000#32
  let main_v15 : FVec F S4096x224 .f32 := broadcastInDim S4096x224 ![] bcast_S_S4096x224 main_cst_4
  let main_v16 : IVec S4096x224 1 := cmpf .olt main_v14 main_v15
  fn_part1 (F := F) main_arg1 main_arg3 main_arg5 main_v13 main_v16
-- ==== Kernel.lean ====
abbrev S2048x4096 : Shape := ⟨2, ![2048, 4096]⟩
abbrev S14336x4096 : Shape := ⟨2, ![14336, 4096]⟩
abbrev S14336x64 : Shape := ⟨2, ![14336, 64]⟩
abbrev S4096x14336 : Shape := ⟨2, ![4096, 14336]⟩
abbrev S4096x224 : Shape := ⟨2, ![4096, 224]⟩
abbrev S2048x14336 : Shape := ⟨2, ![2048, 14336]⟩
abbrev S256x4096 : Shape := ⟨2, ![256, 4096]⟩
abbrev S256x64 : Shape := ⟨2, ![256, 64]⟩
abbrev S256x256 : Shape := ⟨2, ![256, 256]⟩
abbrev S256x64x1 : Shape := ⟨3, ![256, 64, 1]⟩
abbrev S256x64x64 : Shape := ⟨3, ![256, 64, 64]⟩
abbrev S4096x256 : Shape := ⟨2, ![4096, 256]⟩
abbrev S256x14336 : Shape := ⟨2, ![256, 14336]⟩
abbrev S128x14336 : Shape := ⟨2, ![128, 14336]⟩
abbrev S128x224 : Shape := ⟨2, ![128, 224]⟩
abbrev S256x128 : Shape := ⟨2, ![256, 128]⟩
abbrev S128x224x1 : Shape := ⟨3, ![128, 224, 1]⟩
abbrev S128x224x64 : Shape := ⟨3, ![128, 224, 64]⟩
abbrev S14336x128 : Shape := ⟨2, ![14336, 128]⟩

abbrev nBuf : Space → Nat
  | .hbm => 9
  | .vmem => 20
  | .smem => 0
  | _ => 0

abbrev bufTy : (tb : Table) → Fin (tcTables nBuf tb) → BufTy
  | .hbm, ⟨0, _⟩ => ⟨S2048x4096, .f32⟩
  | .hbm, ⟨1, _⟩ => ⟨S14336x4096, .i32⟩
  | .hbm, ⟨2, _⟩ => ⟨S14336x64, .f32⟩
  | .hbm, ⟨3, _⟩ => ⟨S14336x4096, .i32⟩
  | .hbm, ⟨4, _⟩ => ⟨S14336x64, .f32⟩
  | .hbm, ⟨5, _⟩ => ⟨S4096x14336, .i32⟩
  | .hbm, ⟨6, _⟩ => ⟨S4096x224, .f32⟩
  | .hbm, ⟨7, _⟩ => ⟨S2048x14336, .bf16⟩
  | .hbm, ⟨8, _⟩ => ⟨S2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x64, .f32⟩
  | .local _ .vmem, ⟨5, _⟩ => ⟨S256x64, .f32⟩
  | .local _ .vmem, ⟨6, _⟩ => ⟨S256x4096, .i32⟩
  | .local _ .vmem, ⟨7, _⟩ => ⟨S256x4096, .i32⟩
  | .local _ .vmem, ⟨8, _⟩ => ⟨S256x64, .f32⟩
  | .local _ .vmem, ⟨9, _⟩ => ⟨S256x64, .f32⟩
  | .local _ .vmem, ⟨10, _⟩ => ⟨S256x256, .bf16⟩
  | .local _ .vmem, ⟨11, _⟩ => ⟨S256x256, .bf16⟩
  | .local _ .vmem, ⟨12, _⟩ => ⟨S256x14336, .bf16⟩
  | .local _ .vmem, ⟨13, _⟩ => ⟨S256x14336, .bf16⟩
  | .local _ .vmem, ⟨14, _⟩ => ⟨S128x14336, .i32⟩
  | .local _ .vmem, ⟨15, _⟩ => ⟨S128x14336, .i32⟩
  | .local _ .vmem, ⟨16, _⟩ => ⟨S128x224, .f32⟩
  | .local _ .vmem, ⟨17, _⟩ => ⟨S128x224, .f32⟩
  | .local _ .vmem, ⟨18, _⟩ => ⟨S256x128, .f32⟩
  | .local _ .vmem, ⟨19, _⟩ => ⟨S256x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![8, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x14336 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x14336 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x224 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64x1 : S256x64.ShapeCasts S256x64x1
  shapeCasts_S256x64x1_S256x64x1 : S256x64x1.ShapeCasts S256x64x1
  broadcasts_S256x64x1_S256x64x64 : S256x64x1.Broadcasts S256x64x64
  shapeCasts_S256x64x64_S256x4096 : S256x64x64.ShapeCasts S256x4096
  transposes_S256x4096_p1_0_S4096x256 : S256x4096.Transposes [1, 0] S4096x256
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  inb_S256x14336_S256x14336_0_0 : ∀ a, (![0, 0] : Fin 2 → Nat) a + S256x14336.size a ≤ S256x14336.size a
  h_S256x14336 : 0 < S256x14336.numel
  shapeCasts_S256x14336_S256x14336 : S256x14336.ShapeCasts S256x14336
  inb_S128x14336_S128x14336_0_0 : ∀ a, (![0, 0] : Fin 2 → Nat) a + S128x14336.size a ≤ S128x14336.size a
  h_S128x14336 : 0 < S128x14336.numel
  inb_S128x224_S128x224_0_0 : ∀ a, (![0, 0] : Fin 2 → Nat) a + S128x224.size a ≤ S128x224.size a
  h_S128x224 : 0 < S128x224.numel
  shapeCasts_S128x224_S128x224x1 : S128x224.ShapeCasts S128x224x1
  shapeCasts_S128x224x1_S128x224x1 : S128x224x1.ShapeCasts S128x224x1
  broadcasts_S128x224x1_S128x224x64 : S128x224x1.Broadcasts S128x224x64
  shapeCasts_S128x224x64_S128x14336 : S128x224x64.ShapeCasts S128x14336
  transposes_S128x14336_p1_0_S14336x128 : S128x14336.Transposes [1, 0] S14336x128
  inb_S256x128_S256x128_0_0 : ∀ a, (![0, 0] : Fin 2 → Nat) a + S256x128.size a ≤ S256x128.size a
  h_S256x128 : 0 < S256x128.numel
  dot_S256x4096_S4096x256_S256x256_1_0_0_1_n_n_wf : DotDims.WF S256x4096 S4096x256 S256x256 [1] [0] [0] [1] [] []
  dot_S256x14336_S14336x128_S256x128_1_0_0_1_n_n_wf : DotDims.WF S256x14336 S14336x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .i32 = 32 ∨ (Rect.block (s := S14336x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S14336x64.size a
  hwx0_2 : ∀ i : grid0.Coords, EltTy.bits .f32 = 32 ∨ (Rect.block (s := S14336x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S14336x4096.size a
  hwx0_3 : ∀ i : grid0.Coords, EltTy.bits .i32 = 32 ∨ (Rect.block (s := S14336x4096) S256x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S14336x64.size a
  hwx0_4 : ∀ i : grid0.Coords, EltTy.bits .f32 = 32 ∨ (Rect.block (s := S14336x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S2048x14336.size a
  hwx0_5 : ∀ i : grid0.Coords, EltTy.bits .bf16 = 32 ∨ (Rect.block (s := S2048x14336) S256x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x14336.size a ≤ S2048x14336.size a
  hwx1_0 : ∀ i : grid1.Coords, EltTy.bits .bf16 = 32 ∨ (Rect.block (s := S2048x14336) S256x14336.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x14336.size a ≤ S4096x14336.size a
  hwx1_1 : ∀ i : grid1.Coords, EltTy.bits .i32 = 32 ∨ (Rect.block (s := S4096x14336) S128x14336.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x224.size a ≤ S4096x224.size a
  hwx1_2 : ∀ i : grid1.Coords, EltTy.bits .f32 = 32 ∨ (Rect.block (s := S4096x224) S128x224.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S2048x4096.size a
  hwx1_3 : ∀ i : grid1.Coords, EltTy.bits .f32 = 32 ∨ (Rect.block (s := S2048x4096) S256x128.size (cc1_transform_3 i) (hinb1_3 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x14336_S14336x128_S256x128_1_0_0_1_n_n : DotDims S256x14336 S14336x128 S256x128 where
  lhsContracting := [1]
  rhsContracting := [0]
  lhsNonContracting := [0]
  rhsNonContracting := [1]
  lhsBatch := []
  rhsBatch := []
  wf := dot_S256x14336_S14336x128_S256x128_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S256x14336.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x14336.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x224.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x4096 : Shape := ⟨2, ![2048, 4096]⟩
abbrev S14336x4096 : Shape := ⟨2, ![14336, 4096]⟩
abbrev S14336x64 : Shape := ⟨2, ![14336, 64]⟩
abbrev S4096x14336 : Shape := ⟨2, ![4096, 14336]⟩
abbrev S4096x224 : Shape := ⟨2, ![4096, 224]⟩
abbrev S16 : Shape := ⟨1, ![16]⟩
abbrev S_ : Shape := ⟨0, ![]⟩
abbrev S14336x4096x1 : Shape := ⟨3, ![14336, 4096, 1]⟩
abbrev S14336x64x64 : Shape := ⟨3, ![14336, 64, 64]⟩
abbrev S14336x64x1 : Shape := ⟨3, ![14336, 64, 1]⟩
abbrev S4096x14336x1 : Shape := ⟨3, ![4096, 14336, 1]⟩
abbrev S4096x224x64 : Shape := ⟨3, ![4096, 224, 64]⟩
abbrev S4096x224x1 : Shape := ⟨3, ![4096, 224, 1]⟩
abbrev S2048x14336 : Shape := ⟨2, ![2048, 14336]⟩

abbrev nBuf : Space → Nat
  | .hbm => 66
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S14336x4096, .i32⟩
  | .hbm, ⟨2, _⟩ => ⟨S14336x64, .f32⟩
  | .hbm, ⟨3, _⟩ => ⟨S14336x4096, .i32⟩
  | .hbm, ⟨4, _⟩ => ⟨S14336x64, .f32⟩
  | .hbm, ⟨5, _⟩ => ⟨S4096x14336, .i32⟩
  | .hbm, ⟨6, _⟩ => ⟨S4096x224, .f32⟩
  | .hbm, ⟨7, _⟩ => ⟨S16, .f32⟩
  | .hbm, ⟨8, _⟩ => ⟨S_, .i32⟩
  | .hbm, ⟨9, _⟩ => ⟨S14336x4096, .i32⟩
  | .hbm, ⟨10, _⟩ => ⟨S14336x4096, .i1⟩
  | .hbm, ⟨11, _⟩ => ⟨S_, .i32⟩
  | .hbm, ⟨12, _⟩ => ⟨S14336x4096, .i32⟩
  | .hbm, ⟨13, _⟩ => ⟨S14336x4096, .i32⟩
  | .hbm, ⟨14, _⟩ => ⟨S14336x4096, .i32⟩
  | .hbm, ⟨15, _⟩ => ⟨S14336x4096x1, .i32⟩
  | .hbm, ⟨16, _⟩ => ⟨S14336x4096, .f32⟩
  | .hbm, ⟨17, _⟩ => ⟨S14336x64x64, .f32⟩
  | .hbm, ⟨18, _⟩ => ⟨S14336x64x1, .f32⟩
  | .hbm, ⟨19, _⟩ => ⟨S14336x64x64, .f32⟩
  | .hbm, ⟨20, _⟩ => ⟨S14336x64x64, .f32⟩
  | .hbm, ⟨21, _⟩ => ⟨S14336x4096, .f32⟩
  | .hbm, ⟨22, _⟩ => ⟨S_, .i32⟩
  | .hbm, ⟨23, _⟩ => ⟨S14336x4096, .i32⟩
  | .hbm, ⟨24, _⟩ => ⟨S14336x4096, .i1⟩
  | .hbm, ⟨25, _⟩ => ⟨S_, .i32⟩
  | .hbm, ⟨26, _⟩ => ⟨S14336x4096, .i32⟩
  | .hbm, ⟨27, _⟩ => ⟨S14336x4096, .i32⟩
  | .hbm, ⟨28, _⟩ => ⟨S14336x4096, .i32⟩
  | .hbm, ⟨29, _⟩ => ⟨S14336x4096x1, .i32⟩
  | .hbm, ⟨30, _⟩ => ⟨S14336x4096, .f32⟩
  | .hbm, ⟨31, _⟩ => ⟨S14336x64x64, .f32⟩
  | .hbm, ⟨32, _⟩ => ⟨S14336x64x1, .f32⟩
  | .hbm, ⟨33, _⟩ => ⟨S14336x64x64, .f32⟩
  | .hbm, ⟨34, _⟩ => ⟨S14336x64x64, .f32⟩
  | .hbm, ⟨35, _⟩ => ⟨S14336x4096, .f32⟩
  | .hbm, ⟨36, _⟩ => ⟨S_, .i32⟩
  | .hbm, ⟨37, _⟩ => ⟨S4096x14336, .i32⟩
  | .hbm, ⟨38, _⟩ => ⟨S4096x14336, .i1⟩
  | .hbm, ⟨39, _⟩ => ⟨S_, .i32⟩
  | .hbm, ⟨40, _⟩ => ⟨S4096x14336, .i32⟩
  | .hbm, ⟨41, _⟩ => ⟨S4096x14336, .i32⟩
  | .hbm, ⟨42, _⟩ => ⟨S4096x14336, .i32⟩
  | .hbm, ⟨43, _⟩ => ⟨S4096x14336x1, .i32⟩
  | .hbm, ⟨44, _⟩ => ⟨S4096x14336, .f32⟩
  | .hbm, ⟨45, _⟩ => ⟨S4096x224x64, .f32⟩
  | .hbm, ⟨46, _⟩ => ⟨S4096x224x1, .f32⟩
  | .hbm, ⟨47, _⟩ => ⟨S4096x224x64, .f32⟩
  | .hbm, ⟨48, _⟩ => ⟨S4096x224x64, .f32⟩
  | .hbm, ⟨49, _⟩ => ⟨S4096x14336, .f32⟩
  | .hbm, ⟨50, _⟩ => ⟨S4096x14336, .f32⟩
  | .hbm, ⟨51, _⟩ => ⟨S2048x14336, .f32⟩
  | .hbm, ⟨52, _⟩ => ⟨S2048x14336, .f32⟩
  | .hbm, ⟨53, _⟩ => ⟨S2048x14336, .f32⟩
  | .hbm, ⟨54, _⟩ => ⟨S_, .f32⟩
  | .hbm, ⟨55, _⟩ => ⟨S2048x14336, .f32⟩
  | .hbm, ⟨56, _⟩ => ⟨S2048x14336, .f32⟩
  | .hbm, ⟨57, _⟩ => ⟨S_, .f32⟩
  | .hbm, ⟨58, _⟩ => ⟨S2048x14336, .f32⟩
  | .hbm, ⟨59, _⟩ => ⟨S2048x14336, .f32⟩
  | .hbm, ⟨60, _⟩ => ⟨S2048x14336, .f32⟩
  | .hbm, ⟨61, _⟩ => ⟨S4096x14336, .f32⟩
  | .hbm, ⟨62, _⟩ => ⟨S2048x14336, .f32⟩
  | .hbm, ⟨63, _⟩ => ⟨S2048x14336, .f32⟩
  | .hbm, ⟨64, _⟩ => ⟨S14336x4096, .f32⟩
  | .hbm, ⟨65, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  bcast_S_S14336x4096 : S_.BroadcastsInDim S14336x4096 (![] : Fin 0 → Fin S14336x4096.rank)
  bcast_S14336x4096_S14336x4096x1_0_1 : S14336x4096.BroadcastsInDim S14336x4096x1 (![0, 1] : Fin 2 → Fin S14336x4096x1.rank)
  shapeCasts_S14336x4096_S14336x64x64 : S14336x4096.ShapeCasts S14336x64x64
  bcast_S14336x64_S14336x64x1_0_1 : S14336x64.BroadcastsInDim S14336x64x1 (![0, 1] : Fin 2 → Fin S14336x64x1.rank)
  bcast_S14336x64x1_S14336x64x64_0_1_2 : S14336x64x1.BroadcastsInDim S14336x64x64 (![0, 1, 2] : Fin 3 → Fin S14336x64x64.rank)
  shapeCasts_S14336x64x64_S14336x4096 : S14336x64x64.ShapeCasts S14336x4096
  bcast_S_S4096x14336 : S_.BroadcastsInDim S4096x14336 (![] : Fin 0 → Fin S4096x14336.rank)
  bcast_S4096x14336_S4096x14336x1_0_1 : S4096x14336.BroadcastsInDim S4096x14336x1 (![0, 1] : Fin 2 → Fin S4096x14336x1.rank)
  shapeCasts_S4096x14336_S4096x224x64 : S4096x14336.ShapeCasts S4096x224x64
  bcast_S4096x224_S4096x224x1_0_1 : S4096x224.BroadcastsInDim S4096x224x1 (![0, 1] : Fin 2 → Fin S4096x224x1.rank)
  bcast_S4096x224x1_S4096x224x64_0_1_2 : S4096x224x1.BroadcastsInDim S4096x224x64 (![0, 1, 2] : Fin 3 → Fin S4096x224x64.rank)
  shapeCasts_S4096x224x64_S4096x14336 : S4096x224x64.ShapeCasts S4096x14336
  transposes_S14336x4096_S4096x14336_1_0 : S14336x4096.Transposes [1, 0] S4096x14336
  bcast_S_S2048x14336 : S_.BroadcastsInDim S2048x14336 (![] : Fin 0 → Fin S2048x14336.rank)
  transposes_S4096x14336_S14336x4096_1_0 : S4096x14336.Transposes [1, 0] S14336x4096
  gather_S16_S14336x4096x1_S14336x4096_n_0_n_n_0_2_1_wf : GatherDims.WF S16 S14336x4096x1 S14336x4096 [] [0] [] [0] [] 2 ![1]
  gather_S16_S4096x14336x1_S4096x14336_n_0_n_n_0_2_1_wf : GatherDims.WF S16 S4096x14336x1 S4096x14336 [] [0] [] [0] [] 2 ![1]
  dot_S2048x4096_S4096x14336_S2048x14336_1_0_0_1_n_n_wf : DotDims.WF S2048x4096 S4096x14336 S2048x14336 [1] [0] [0] [1] [] []
  dot_S2048x14336_S14336x4096_S2048x4096_1_0_0_1_n_n_wf : DotDims.WF S2048x14336 S14336x4096 S2048x4096 [1] [0] [0] [1] [] []

variable [Facts₀]

def gather_S16_S14336x4096x1_S14336x4096_n_0_n_n_0_2_1 : GatherDims S16 S14336x4096x1 S14336x4096 where
  offsetDims := []
  collapsedSliceDims := [0]
  operandBatchingDims := []
  startIndicesBatchingDims := []
  startIndexMap := [0]
  indexVectorDim := 2
  sliceSizes := ![1]
  wf := gather_S16_S14336x4096x1_S14336x4096_n_0_n_n_0_2_1_wf
def gather_S16_S4096x14336x1_S4096x14336_n_0_n_n_0_2_1 : GatherDims S16 S4096x14336x1 S4096x14336 where
  offsetDims := []
  collapsedSliceDims := [0]
  operandBatchingDims := []
  startIndicesBatchingDims := []
  startIndexMap := [0]
  indexVectorDim := 2
  sliceSizes := ![1]
  wf := gather_S16_S4096x14336x1_S4096x14336_n_0_n_n_0_2_1_wf
def dot_S2048x4096_S4096x14336_S2048x14336_1_0_0_1_n_n : DotDims S2048x4096 S4096x14336 S2048x14336 where
  lhsContracting := [1]
  rhsContracting := [0]
  lhsNonContracting := [0]
  rhsNonContracting := [1]
  lhsBatch := []
  rhsBatch := []
  wf := dot_S2048x4096_S4096x14336_S2048x14336_1_0_0_1_n_n_wf
def dot_S2048x14336_S14336x4096_S2048x4096_1_0_0_1_n_n : DotDims S2048x14336 S14336x4096 S2048x4096 where
  lhsContracting := [1]
  rhsContracting := [0]
  lhsNonContracting := [0]
  rhsNonContracting := [1]
  lhsBatch := []
  rhsBatch := []
  wf := dot_S2048x14336_S14336x4096_S2048x4096_1_0_0_1_n_n_wf

class Facts : Prop extends Facts₀ where

variable [Facts]
-- ==== Proof.Spec.lean ====
/-
  What both programs compute, as functions of the argument arrays over the extended reals.

  A 4-bit code selects one of sixteen fixed codebook entries; a weight is that entry times the scale of the
  group of 64 consecutive columns its column lies in. With `g` and `u` the inner products of a row of `x`
  with a row of the gate and of the up weights, the hidden activation is `g · logistic g · u`, and the result
  is the inner product of a row of hidden activations with a row of the down weights.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The codebook read at a code word: entry `i` for `i = 1, …, 15`, entry `0` at every other word (so also at `0`). -/
def nf4 (c : BitVec 32) : EReal :=
  Scalar.select (IntOp.cmpi .eq c 15#32) (FloatOps.ofBits (F := Ideal) .f32 0x3F800000#32) <|
  Scalar.select (IntOp.cmpi .eq c 14#32) (FloatOps.ofBits (F := Ideal) .f32 0x3F3913B3#32) <|
  Scalar.select (IntOp.cmpi .eq c 13#32) (FloatOps.ofBits (F := Ideal) .f32 0x3F1007AB#32) <|
  Scalar.select (IntOp.cmpi .eq c 12#32) (FloatOps.ofBits (F := Ideal) .f32 0x3EE1A4B8#32) <|
  Scalar.select (IntOp.cmpi .eq c 11#32) (FloatOps.ofBits (F := Ideal) .f32 0x3EAD033A#32) <|
  Scalar.select (IntOp.cmpi .eq c 10#32) (FloatOps.ofBits (F := Ideal) .f32 0x3E7C04DD#32) <|
  Scalar.select (IntOp.cmpi .eq c 9#32) (FloatOps.ofBits (F := Ideal) .f32 0x3E24CAE3#32) <|
  Scalar.select (IntOp.cmpi .eq c 8#32) (FloatOps.ofBits (F := Ideal) .f32 0x3DA2FAFF#32) <|
  Scalar.select (IntOp.cmpi .eq c 7#32) (FloatOps.ofBits (F := Ideal) .f32 0x00000000#32) <|
  Scalar.select (IntOp.cmpi .eq c 6#32) (FloatOps.ofBits (F := Ideal) .f32 0xBDBA7871#32) <|
  Scalar.select (IntOp.cmpi .eq c 5#32) (FloatOps.ofBits (F := Ideal) .f32 0xBE3D353F#32) <|
  Scalar.select (IntOp.cmpi .eq c 4#32) (FloatOps.ofBits (F := Ideal) .f32 0xBE91A24D#32) <|
  Scalar.select (IntOp.cmpi .eq c 3#32) (FloatOps.ofBits (F := Ideal) .f32 0xBECA32A0#32) <|
  Scalar.select (IntOp.cmpi .eq c 2#32) (FloatOps.ofBits (F := Ideal) .f32 0xBF066B30#32) <|
  Scalar.select (IntOp.cmpi .eq c 1#32) (FloatOps.ofBits (F := Ideal) .f32 0xBF3239B1#32) <|
  (FloatOps.ofBits (F := Ideal) .f32 0xBF800000#32)

/-- A dequantised weight at row `r`, column `k`: the codebook entry of the code there, times the scale of the
    group of 64 columns that `k` lies in. -/
def deq {R K NB : Nat} (h : K = 64 * NB) (codes : (⟨2, ![R, K]⟩ : Shape).Idx → BitVec 32)
    (scale : (⟨2, ![R, NB]⟩ : Shape).Idx → EReal) (r : Fin R) (k : Fin K) : EReal :=
  nf4 (codes (ix2 r k)) * scale (ix2 r ⟨k.val / 64, by have := k.isLt; omega⟩)

/-- The hidden activation at row `t`, column `j`: `g · logistic g · u` with `g = ∑ₖ x[t,k] · Wg[j,k]` and
    `u = ∑ₖ x[t,k] · Wu[j,k]`. -/
def hidden {T K M NB : Nat} (h : K = 64 * NB) (x : (⟨2, ![T, K]⟩ : Shape).Idx → EReal)
    (gc : (⟨2, ![M, K]⟩ : Shape).Idx → BitVec 32) (gs : (⟨2, ![M, NB]⟩ : Shape).Idx → EReal)
    (uc : (⟨2, ![M, K]⟩ : Shape).Idx → BitVec 32) (us : (⟨2, ![M, NB]⟩ : Shape).Idx → EReal)
    (t : Fin T) (j : Fin M) : EReal :=
  (∑ k : Fin K, x (ix2 t k) * deq h gc gs j k) * Ideal.logistic (∑ k : Fin K, x (ix2 t k) * deq h gc gs j k)
    * (∑ k : Fin K, x (ix2 t k) * deq h uc us j k)

/-- The hidden activations as an array. -/
def hiddenArr {T K M NB : Nat} (h : K = 64 * NB) (x : (⟨2, ![T, K]⟩ : Shape).Idx → EReal)
    (gc : (⟨2, ![M, K]⟩ : Shape).Idx → BitVec 32) (gs : (⟨2, ![M, NB]⟩ : Shape).Idx → EReal)
    (uc : (⟨2, ![M, K]⟩ : Shape).Idx → BitVec 32) (us : (⟨2, ![M, NB]⟩ : Shape).Idx → EReal) :
    (⟨2, ![T, M]⟩ : Shape).Idx → EReal :=
  fun i => hidden h x gc gs uc us (i 0) (i 1)

/-- The down projection at row `t`, column `d`: `∑ⱼ hid[t,j] · Wd[d,j]`. -/
def down {T M D NB : Nat} (h : M = 64 * NB) (hid : (⟨2, ![T, M]⟩ : Shape).Idx → EReal)
    (dc : (⟨2, ![D, M]⟩ : Shape).Idx → BitVec 32) (ds : (⟨2, ![D, NB]⟩ : Shape).Idx → EReal)
    (t : Fin T) (d : Fin D) : EReal :=
  ∑ j : Fin M, hid (ix2 t j) * deq h dc ds d j

/-- The down projection as an array. -/
def downArr {T M D NB : Nat} (h : M = 64 * NB) (hid : (⟨2, ![T, M]⟩ : Shape).Idx → EReal)
    (dc : (⟨2, ![D, M]⟩ : Shape).Idx → BitVec 32) (ds : (⟨2, ![D, NB]⟩ : Shape).Idx → EReal) :
    (⟨2, ![T, D]⟩ : Shape).Idx → EReal :=
  fun i => down h hid dc ds (i 0) (i 1)

theorem h4096 : 4096 = 64 * 64 := by norm_num
theorem h14336 : 14336 = 64 * 224 := by norm_num

/-- The whole computation at its sizes: 2048 rows of 4096 inputs, 14336 hidden columns, 4096 outputs. -/
def result (x : (⟨2, ![2048, 4096]⟩ : Shape).Idx → EReal)
    (gc : (⟨2, ![14336, 4096]⟩ : Shape).Idx → BitVec 32) (gs : (⟨2, ![14336, 64]⟩ : Shape).Idx → EReal)
    (uc : (⟨2, ![14336, 4096]⟩ : Shape).Idx → BitVec 32) (us : (⟨2, ![14336, 64]⟩ : Shape).Idx → EReal)
    (dc : (⟨2, ![4096, 14336]⟩ : Shape).Idx → BitVec 32) (ds : (⟨2, ![4096, 224]⟩ : Shape).Idx → EReal) :
    (⟨2, ![2048, 4096]⟩ : Shape).Idx → EReal :=
  downArr h14336 (hiddenArr h4096 x gc gs uc us) dc ds

end Cert.Spec

end
-- ==== Proof.K0Payload.lean ====
/-
  What the first kernel's body leaves in its output block, entry by entry: at row `p`, column `q` of the
  block the hidden activation of row `p` of the `x` block against rows `q` of the two weight blocks.
-/
import proofs.«429608_j4947802325695_1_alg».proof.Proof.Gen.KernelIdeal.Frame
import proofs.«429608_j4947802325695_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KValue

open Cert.KernelIdeal Cert.KernelIdeal.Gen Idealize.ShloMosaic Idealize.ShloMosaic.TcCoe Idealize.ShloMosaic.ValueIdx

/-! ## The scale block laid along the columns -/

/-- A block of scales `[256, 64]`, viewed `[256, 64, 1]`, broadcast to `[256, 64, 64]` and viewed `[256, 4096]`, reads at
    row `q`, column `k` the scale of the group of 64 columns that `k` lies in. -/
theorem scale_apply {α : Type} (sc : S256x64.Idx → α) (q : Fin 256) (k : Fin 4096) :
    shapeCast S256x4096 (broadcastTo S256x64x64 (shapeCast S256x64x1 (shapeCast S256x64x1 sc shapeCasts_S256x64_S256x64x1)
      shapeCasts_S256x64x1_S256x64x1) broadcasts_S256x64x1_S256x64x64) shapeCasts_S256x64x64_S256x4096 (ix2 q k)
      = sc (ix2 q ⟨k.val / 64, by have := k.isLt; omega⟩) := by
  have hk := k.isLt
  refine (shapeCast_apply _ shapeCasts_S256x64x64_S256x4096 (ix2 q k)
    (ix3 q (⟨k.val / 64, by omega⟩ : Fin 64) (⟨k.val % 64, by omega⟩ : Fin 64)) ?_).trans ?_
  · rw [Shape.rowMajor_val_three, Shape.rowMajor_val_two]
    show (q.val * 64 + k.val / 64) * 64 + k.val % 64 = q.val * 4096 + k.val
    omega
  refine (broadcastTo_apply _ broadcasts_S256x64x1_S256x64x64 _
    (ix3 q (⟨k.val / 64, by omega⟩ : Fin 64) (0 : Fin 1)) ?_).trans ?_
  · intro a
    match a with
    | ⟨0, _⟩ =>
      show q.val = if (256 : ℕ) = 1 then 0 else q.val
      exact (if_neg (by decide)).symm
    | ⟨1, _⟩ =>
      show k.val / 64 = if (64 : ℕ) = 1 then 0 else k.val / 64
      exact (if_neg (by decide)).symm
    | ⟨2, _⟩ =>
      show 0 = if (1 : ℕ) = 1 then 0 else k.val % 64
      exact (if_pos rfl).symm
  rw [shapeCast_self]
  refine shapeCast_apply sc shapeCasts_S256x64_S256x64x1 _ (ix2 q (⟨k.val / 64, by omega⟩ : Fin 64)) ?_
  rw [Shape.rowMajor_val_three, Shape.rowMajor_val_two]
  show q.val * 64 + k.val / 64 = (q.val * 64 + k.val / 64) * 1 + 0
  omega

/-! ## The dequantised weight blocks -/

/-- The gate weight block at row `q`, column `k`: the fifteen selects over the code there leave its codebook entry,
    which the scale of the column's group multiplies; the narrowing to bf16 changes nothing. -/
theorem gate_weight_apply (c : Vec Ideal S256x4096 .i32) (sc : Vec Ideal S256x64 .f32) (q : Fin 256) (k : Fin 4096) :
    k0_pay5 (F := Ideal) c sc (k0_pay3 c) (k0_pay4 c) (Scalar.ofBits .f32 0x3DA2FAFF#32) (ix2 q k)
      = Cert.Spec.deq Cert.Spec.h4096 c sc q k := by
  unfold k0_pay5 k0_pay3 k0_pay4 Cert.Spec.deq
  exact congrArg₂ (· * ·) rfl (scale_apply sc q k)

/-! ## The product of the `x` block with a transposed weight block -/

/-- The left operand's row is the output's row … -/
theorem lhs_dot_S256x4096_S4096x256_S256x256_1_0_0_1_n_n_0 (j : S256x256.Idx)
    (k : dot_S256x4096_S4096x256_S256x256_1_0_0_1_n_n.contr.Idx) :
    (dot_S256x4096_S4096x256_S256x256_1_0_0_1_n_n.lhsIdx j k 0).val = (j 0).val := rfl
/-- … its column the contraction's coordinate; -/
theorem lhs_dot_S256x4096_S4096x256_S256x256_1_0_0_1_n_n_1 (j : S256x256.Idx)
    (k : dot_S256x4096_S4096x256_S256x256_1_0_0_1_n_n.contr.Idx) :
    (dot_S256x4096_S4096x256_S256x256_1_0_0_1_n_n.lhsIdx j k 1).val = (k ⟨0, by decide⟩).val :=
  dot_S256x4096_S4096x256_S256x256_1_0_0_1_n_n.lhsIdx_val_of_single rfl j k
/-- the right operand's row is the contraction's coordinate … -/
theorem rhs_dot_S256x4096_S4096x256_S256x256_1_0_0_1_n_n_0 (j : S256x256.Idx)
    (k : dot_S256x4096_S4096x256_S256x256_1_0_0_1_n_n.contr.Idx) :
    (dot_S256x4096_S4096x256_S256x256_1_0_0_1_n_n.rhsIdx j k 0).val = (k ⟨0, by decide⟩).val :=
  dot_S256x4096_S4096x256_S256x256_1_0_0_1_n_n.rhsIdx_val_of_single rfl j k
/-- … and its column the output's column. -/
theorem rhs_dot_S256x4096_S4096x256_S256x256_1_0_0_1_n_n_1 (j : S256x256.Idx)
    (k : dot_S256x4096_S4096x256_S256x256_1_0_0_1_n_n.contr.Idx) :
    (dot_S256x4096_S4096x256_S256x256_1_0_0_1_n_n.rhsIdx j k 1).val = (j 1).val := rfl

/-- The `x` block times the transpose of a weight block, into the zero accumulator, at row `p`, column `q`: the sum
    over the 4096 columns of row `p` of the one against row `q` of the other. -/
theorem matmul_rows_apply (a : FVec Ideal S256x4096 .bf16) (w : FVec Ideal S256x4096 .bf16) (p q : Fin 256) :
    matmul dot_S256x4096_S4096x256_S256x256_1_0_0_1_n_n none a
        (transpose S4096x256 [1, 0] w transposes_S256x4096_p1_0_S4096x256)
        (constant (F := Ideal) S256x256 .f32 0x00000000#32) (ix2 p q)
      = ∑ k : Fin 4096, a (ix2 p k) * w (ix2 q k) := by
  refine (Ideal.matmul_constant_zero_apply dot_S256x4096_S4096x256_S256x256_1_0_0_1_n_n none a _ (ix2 p q)).trans ?_
  refine (Equiv.sum_comp (contrEquiv1 dot_S256x4096_S4096x256_S256x256_1_0_0_1_n_n 4096 rfl rfl).symm _).symm.trans ?_
  refine Finset.sum_congr rfl fun k _ => ?_
  have hk : (((contrEquiv1 dot_S256x4096_S4096x256_S256x256_1_0_0_1_n_n 4096 rfl rfl).symm k) ⟨0, by decide⟩ : ℕ) = k.val :=
    contrEquiv1_symm_val dot_S256x4096_S4096x256_S256x256_1_0_0_1_n_n 4096 rfl rfl k
  refine congrArg₂ (· * ·) (congrArg a ?_) ?_
  · refine funext fun c => Fin.ext ?_
    match c with
    | ⟨0, _⟩ => exact lhs_dot_S256x4096_S4096x256_S256x256_1_0_0_1_n_n_0 (ix2 p q) _
    | ⟨1, _⟩ => exact (lhs_dot_S256x4096_S4096x256_S256x256_1_0_0_1_n_n_1 (ix2 p q) _).trans hk
  · refine transpose_apply [1, 0] w transposes_S256x4096_p1_0_S4096x256 _ (ix2 q k) fun b => ?_
    match b with
    | ⟨0, _⟩ => exact ((rhs_dot_S256x4096_S4096x256_S256x256_1_0_0_1_n_n_0 (ix2 p q) _).trans hk).symm
    | ⟨1, _⟩ => exact (rhs_dot_S256x4096_S4096x256_S256x256_1_0_0_1_n_n_1 (ix2 p q) _).symm

/-! ## The stored value -/

/-- What the body stores, at row `p`, column `q`, over the `x` block narrowed to bf16 (`xb`), the gate weight block
    (`wg`) and the up weights' codes and scales: with `g` the product of row `p` of `xb` and row `q` of `wg`, and `u`
    that of row `p` of `xb` and row `q` of the dequantised up weights, it is `g · logistic g · u`. -/
theorem stored_apply (xb wg : FVec Ideal S256x4096 .bf16) (c : Vec Ideal S256x4096 .i32) (sc : Vec Ideal S256x64 .f32)
    (p q : Fin 256) :
    k0_pay1 (F := Ideal) xb wg c sc (k0_pay8 c (k0_pay6 (F := Ideal)) k0_pay7) k0_pay9 (ix2 p q)
      = (∑ k : Fin 4096, xb (ix2 p k) * wg (ix2 q k)) * Ideal.logistic (∑ k : Fin 4096, xb (ix2 p k) * wg (ix2 q k))
        * (∑ k : Fin 4096, xb (ix2 p k) * Cert.Spec.deq Cert.Spec.h4096 c sc q k) := by
  unfold k0_pay1
  refine congrArg₂ (· * ·) (congrArg₂ (· * ·) (matmul_rows_apply xb wg p q)
    (congrArg Ideal.logistic (matmul_rows_apply xb wg p q))) ?_
  refine (matmul_rows_apply xb _ p q).trans (Finset.sum_congr rfl fun k _ => congrArg (xb (ix2 p k) * ·) ?_)
  unfold k0_pay8 k0_pay6 k0_pay7 k0_pay9 Cert.Spec.deq
  exact congrArg₂ (· * ·) rfl (scale_apply sc q k)

theorem out0_5_apply (x0 : Vec Ideal S256x4096 .f32) (x1 : Vec Ideal S256x4096 .i32) (x2 : Vec Ideal S256x64 .f32)
    (x3 : Vec Ideal S256x4096 .i32) (x4 : Vec Ideal S256x64 .f32) (p q : Fin 256) :
    out0_5 (F := Ideal) x0 x1 x2 x3 x4 (ix2 p q) = Cert.Spec.hidden Cert.Spec.h4096 x0 x1 x2 x3 x4 p q := by
  have hz : (![0, 0] : Fin 2 → Nat) = fun _ => 0 := by
    funext a; match a with | ⟨0, _⟩ => rfl | ⟨1, _⟩ => rfl
  unfold out0_5
  rw [View.canon_unit_zero hz]
  simp only [View.ld_unit_zero (S := S256x4096) hz, View.ld_unit_zero (S := S256x64) hz]
  refine (stored_apply (k0_pay2 x0) _ x3 x4 p q).trans ?_
  have eg : (∑ k : Fin 4096, k0_pay2 x0 (ix2 p k)
        * k0_pay5 (F := Ideal) x1 x2 (k0_pay3 x1) (k0_pay4 x1) (Scalar.ofBits .f32 0x3DA2FAFF#32) (ix2 q k))
      = ∑ k : Fin 4096, x0 (ix2 p k) * Cert.Spec.deq Cert.Spec.h4096 x1 x2 q k :=
    Finset.sum_congr rfl fun k _ => congrArg₂ (· * ·) rfl (gate_weight_apply x1 x2 q k)
  have eu : (∑ k : Fin 4096, k0_pay2 x0 (ix2 p k) * Cert.Spec.deq Cert.Spec.h4096 x3 x4 q k)
      = ∑ k : Fin 4096, x0 (ix2 p k) * Cert.Spec.deq Cert.Spec.h4096 x3 x4 q k := rfl
  unfold Cert.Spec.hidden
  exact congrArg₂ (· * ·) (congrArg₂ (· * ·) eg (congrArg Ideal.logistic eg)) eu

end Cert.KernelIdeal.KValue

end
-- ==== Proof.K0Array.lean ====
/-
  The first kernel's output array after its grid has run: the blocks written back at the 8 × 56 points tile
  the 2048 × 14336 array, and block (a, b) holds the hidden activations of rows 256a … and columns 256b …,
  so the array is the hidden activations of the arrays the region found.
-/
import proofs.«429608_j4947802325695_1_alg».proof.Proof.K0Payload

noncomputable section

open scoped BigOperators

namespace Cert.KernelIdeal.KValue

open Cert.KernelIdeal Cert.KernelIdeal.Gen Idealize.ShloMosaic Idealize.ShloMosaic.TcCoe Idealize.ShloMosaic.ValueIdx
open Idealize.ShloMosaic.Pipeline (Dat)

/-- The index maps at each of the 8 × 56 points: the block of `x` moves with the output block's row
    index, the four weight blocks with its column index, every input block spans its array's whole second axis,
    and point `t`'s output block index is (t / 56, t % 56). -/
theorem hidden_block_indices : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = win0_5.index t (1 : Fin 2) ∧ win0_4.index t (1 : Fin 2) = 0
    ∧ win0_5.index t (0 : Fin 2) = t.val / 56 ∧ win0_5.index t (1 : Fin 2) = t.val % 56 :=
  (by decide +kernel : ∀ t : Fin grid0.N, _)

/-- The hidden activation depends only on one row of `x` and one row of each weight array: if row `p` of the
    `x` block is row `r` of `x`, and row `q` of each weight block is row `s` of its array, the block's
    activation at (p, q) is the arrays' at (r, s). -/
theorem hidden_of_rows (x : S2048x4096.Idx → EReal) (gc : S14336x4096.Idx → BitVec 32) (gs : S14336x64.Idx → EReal)
    (uc : S14336x4096.Idx → BitVec 32) (us : S14336x64.Idx → EReal)
    (x0 : S256x4096.Idx → EReal) (x1 : S256x4096.Idx → BitVec 32) (x2 : S256x64.Idx → EReal)
    (x3 : S256x4096.Idx → BitVec 32) (x4 : S256x64.Idx → EReal)
    (r : Fin 2048) (s : Fin 14336) (p q : Fin 256)
    (h0 : ∀ k : Fin 4096, x0 (ix2 p k) = x (ix2 r k))
    (h1 : ∀ k : Fin 4096, x1 (ix2 q k) = gc (ix2 s k))
    (h2 : ∀ g : Fin 64, x2 (ix2 q g) = gs (ix2 s g))
    (h3 : ∀ k : Fin 4096, x3 (ix2 q k) = uc (ix2 s k))
    (h4 : ∀ g : Fin 64, x4 (ix2 q g) = us (ix2 s g)) :
    Cert.Spec.hidden Cert.Spec.h4096 x0 x1 x2 x3 x4 p q = Cert.Spec.hidden Cert.Spec.h4096 x gc gs uc us r s := by
  unfold Cert.Spec.hidden Cert.Spec.deq
  simp only [h0, h1, h2, h3, h4]

/-- What point `t` writes back is block `t` of the hidden activations of the arrays the region found: at (p, q) of
    the block the body leaves the activation of row `p` of the `x` block against rows `q` of the weight blocks, and
    those rows are rows 256·(t / 56) + p and 256·(t % 56) + q of the arrays. -/
theorem flushed_hidden (V : (c : Dev nD) → (b : Ref sig .tc) → Buf (Elt Ideal) ((c : Thread nD τ).loc b)) (c : Dev nD)
    (t : Fin cfg0.N) :
    (dat0 (F := Ideal) V c).flushed 5 t = ((cfg0.win 5).blk t).view.read (Elt Ideal)
      (Cert.Spec.hiddenArr Cert.Spec.h4096 (V c main_arg0) (V c main_arg1) (V c main_arg2) (V c main_arg3) (V c main_arg4)) := by
  show (cfg0.win 5).cut (grid0.coords t) ((dat0 V c).after 5 t) = _
  rw [after0_5]
  obtain ⟨e00, e01, e10, e11, e20, e21, e30, e31, e40, e41, -, -⟩ := hidden_block_indices t
  funext j
  obtain ⟨p, q, rfl⟩ : ∃ (p : Fin 256) (q : Fin 256), j = ix2 p q := ⟨j 0, j 1, eq_ix2 j⟩
  refine (out0_5_apply (iblk0 V c 0 t) (iblk0 V c 1 t) (iblk0 V c 2 t) (iblk0 V c 3 t) (iblk0 V c 4 t) p q).trans ?_
  refine hidden_of_rows (V c main_arg0) (V c main_arg1) (V c main_arg2) (V c main_arg3) (V c main_arg4)
    (iblk0 V c 0 t) (iblk0 V c 1 t) (iblk0 V c 2 t) (iblk0 V c 3 t) (iblk0 V c 4 t)
    (((cfg0.win 5).blk t).view.emb (ix2 p q) 0) (((cfg0.win 5).blk t).view.emb (ix2 p q) 1) p q ?_ ?_ ?_ ?_ ?_
  · intro k
    show V c main_arg0 (((cfg0.win 0).blk t).view.emb (ix2 p k)) = V c main_arg0 (ix2 (((cfg0.win 5).blk t).view.emb (ix2 p q) 0) k)
    congr 1
    funext a
    apply Fin.ext
    match a with
    | ⟨0, _⟩ =>
      show win0_0.index t (0 : Fin 2) * 256 + 1 * p.val = win0_5.index t (0 : Fin 2) * 256 + 1 * p.val
      omega
    | ⟨1, _⟩ =>
      show win0_0.index t (1 : Fin 2) * 4096 + 1 * k.val = k.val
      omega
  · intro k
    show V c main_arg1 (((cfg0.win 1).blk t).view.emb (ix2 q k)) = V c main_arg1 (ix2 (((cfg0.win 5).blk t).view.emb (ix2 p q) 1) k)
    congr 1
    funext a
    apply Fin.ext
    match a with
    | ⟨0, _⟩ =>
      show win0_1.index t (0 : Fin 2) * 256 + 1 * q.val = win0_5.index t (1 : Fin 2) * 256 + 1 * q.val
      omega
    | ⟨1, _⟩ =>
      show win0_1.index t (1 : Fin 2) * 4096 + 1 * k.val = k.val
      omega
  · intro g
    show V c main_arg2 (((cfg0.win 2).blk t).view.emb (ix2 q g)) = V c main_arg2 (ix2 (((cfg0.win 5).blk t).view.emb (ix2 p q) 1) g)
    congr 1
    funext a
    apply Fin.ext
    match a with
    | ⟨0, _⟩ =>
      show win0_2.index t (0 : Fin 2) * 256 + 1 * q.val = win0_5.index t (1 : Fin 2) * 256 + 1 * q.val
      omega
    | ⟨1, _⟩ =>
      show win0_2.index t (1 : Fin 2) * 64 + 1 * g.val = g.val
      omega
  · intro k
    show V c main_arg3 (((cfg0.win 3).blk t).view.emb (ix2 q k)) = V c main_arg3 (ix2 (((cfg0.win 5).blk t).view.emb (ix2 p q) 1) k)
    congr 1
    funext a
    apply Fin.ext
    match a with
    | ⟨0, _⟩ =>
      show win0_3.index t (0 : Fin 2) * 256 + 1 * q.val = win0_5.index t (1 : Fin 2) * 256 + 1 * q.val
      omega
    | ⟨1, _⟩ =>
      show win0_3.index t (1 : Fin 2) * 4096 + 1 * k.val = k.val
      omega
  · intro g
    show V c main_arg4 (((cfg0.win 4).blk t).view.emb (ix2 q g)) = V c main_arg4 (ix2 (((cfg0.win 5).blk t).view.emb (ix2 p q) 1) g)
    congr 1
    funext a
    apply Fin.ext
    match a with
    | ⟨0, _⟩ =>
      show win0_4.index t (0 : Fin 2) * 256 + 1 * q.val = win0_5.index t (1 : Fin 2) * 256 + 1 * q.val
      omega
    | ⟨1, _⟩ =>
      show win0_4.index t (1 : Fin 2) * 64 + 1 * g.val = g.val
      omega

/-- An index of the array is in point `t`'s output block iff each coordinate is in the block's range on its axis. -/
theorem mem_hidden_block (t : Fin cfg0.N) (i : S2048x14336.Idx) :
    i ∈ ((cfg0.win 5).blk t).view.set ↔ ∀ a : Fin 2, win0_5.index t a * S256x256.size a ≤ (i a).val ∧ (i a).val < win0_5.index t a * S256x256.size a + S256x256.size a := by
  show i ∈ ((View.whole main_v0).slice (win0_5.rect t)).set ↔ _
  rw [View.set_slice_whole, Rect.mem_set_unit]
  exact Iff.rfl

/-- The output blocks tile the array: entry (r, s) lies in the block of the point 56·(r / 256) + s / 256, whose
    block index is (r / 256, s / 256); every point writes its block back. -/
theorem hidden_blocks_cover (i : S2048x14336.Idx) :
    ∃ t : Fin cfg0.N, (cfg0.win 5).flush t = true ∧ i ∈ ((cfg0.win 5).blk t).view.set := by
  have hi0 : (i 0).val < 2048 := (i 0).isLt
  have hi1 : (i 1).val < 14336 := (i 1).isLt
  have hN : cfg0.N = 448 := N_0
  have ht : (i 0).val / 256 * 56 + (i 1).val / 256 < cfg0.N := by rw [hN]; omega
  obtain ⟨-, -, -, -, -, -, -, -, -, -, q0, q1⟩ := hidden_block_indices ⟨(i 0).val / 256 * 56 + (i 1).val / 256, ht⟩
  refine ⟨⟨(i 0).val / 256 * 56 + (i 1).val / 256, ht⟩, flush0_5 _, ?_⟩
  rw [mem_hidden_block]
  intro a
  match a with
  | ⟨0, _⟩ =>
    show win0_5.index ⟨(i 0).val / 256 * 56 + (i 1).val / 256, ht⟩ (0 : Fin 2) * 256 ≤ (i 0).val
      ∧ (i 0).val < win0_5.index ⟨(i 0).val / 256 * 56 + (i 1).val / 256, ht⟩ (0 : Fin 2) * 256 + 256
    rw [q0]
    show ((i 0).val / 256 * 56 + (i 1).val / 256) / 56 * 256 ≤ (i 0).val
      ∧ (i 0).val < ((i 0).val / 256 * 56 + (i 1).val / 256) / 56 * 256 + 256
    omega
  | ⟨1, _⟩ =>
    show win0_5.index ⟨(i 0).val / 256 * 56 + (i 1).val / 256, ht⟩ (1 : Fin 2) * 256 ≤ (i 1).val
      ∧ (i 1).val < win0_5.index ⟨(i 0).val / 256 * 56 + (i 1).val / 256, ht⟩ (1 : Fin 2) * 256 + 256
    rw [q1]
    show ((i 0).val / 256 * 56 + (i 1).val / 256) % 56 * 256 ≤ (i 1).val
      ∧ (i 1).val < ((i 0).val / 256 * 56 + (i 1).val / 256) % 56 * 256 + 256
    omega

theorem hidden_array (V : (c : Dev nD) → (b : Ref sig .tc) → Buf (Elt Ideal) ((c : Thread nD τ).loc b)) (c : Dev nD) :
    (dat0 (F := Ideal) V c).arrAt 5 cfg0.N
      = Cert.Spec.hiddenArr Cert.Spec.h4096 (V c main_arg0) (V c main_arg1) (V c main_arg2) (V c main_arg3) (V c main_arg4) := by
  exact (dat0 (F := Ideal) V c).arrAt_eq_of_cover 5 _ (fun t _ => flushed_hidden V c t) hidden_blocks_cover

end Cert.KernelIdeal.KValue

end
-- ==== Proof.K1Payload.lean ====
/-
  What the second kernel's body leaves in its output block, entry by entry: at row `p`, column `q` of the
  block the inner product of row `p` of the hidden block with row `q` of the down weight block.
-/
import proofs.«429608_j4947802325695_1_alg».proof.Proof.Gen.KernelIdeal.Frame
import proofs.«429608_j4947802325695_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KValue

open Cert.KernelIdeal Cert.KernelIdeal.Gen Idealize.ShloMosaic Idealize.ShloMosaic.TcCoe Idealize.ShloMosaic.ValueIdx

/-- The whole-block rectangles sit at the zero offsets. -/
theorem zero_offsets : (![0, 0] : Fin 2 → Nat) = fun _ => 0 :=
  funext fun a => match a with | ⟨0, _⟩ => rfl | ⟨1, _⟩ => rfl

/-! ## The product's operand indices, axis by axis

The product contracts the hidden block's column axis with the weight block's row axis: at the result's entry
`(p, q)` and contraction position `k` the left operand is read at `(p, k)` and the right one at `(k, q)`. -/

/-- The left operand's row is the result's row. -/
theorem lhs_axis0 (j : S256x128.Idx) (k : dot_S256x14336_S14336x128_S256x128_1_0_0_1_n_n.contr.Idx) :
    ((dot_S256x14336_S14336x128_S256x128_1_0_0_1_n_n.lhsIdx j k) 0).val = (j 0).val := by
  unfold DotDims.lhsIdx
  rw [dif_neg (show ¬(0 : Fin S256x14336.rank) ∈ dot_S256x14336_S14336x128_S256x128_1_0_0_1_n_n.lhsBatch by decide),
    dif_pos (show (0 : Fin S256x14336.rank) ∈ dot_S256x14336_S14336x128_S256x128_1_0_0_1_n_n.lhsNonContracting by decide)]
  rfl

/-- The left operand's column is the contraction position. -/
theorem lhs_axis1 (j : S256x128.Idx) (k : dot_S256x14336_S14336x128_S256x128_1_0_0_1_n_n.contr.Idx) :
    ((dot_S256x14336_S14336x128_S256x128_1_0_0_1_n_n.lhsIdx j k) 1).val = (k ⟨0, by decide⟩).val :=
  dot_S256x14336_S14336x128_S256x128_1_0_0_1_n_n.lhsIdx_val_of_single (cl := 1) rfl j k

/-- The right operand's row is the contraction position. -/
theorem rhs_axis0 (j : S256x128.Idx) (k : dot_S256x14336_S14336x128_S256x128_1_0_0_1_n_n.contr.Idx) :
    ((dot_S256x14336_S14336x128_S256x128_1_0_0_1_n_n.rhsIdx j k) 0).val = (k ⟨0, by decide⟩).val :=
  dot_S256x14336_S14336x128_S256x128_1_0_0_1_n_n.rhsIdx_val_of_single (cr := 0) rfl j k

/-- The right operand's column is the result's column. -/
theorem rhs_axis1 (j : S256x128.Idx) (k : dot_S256x14336_S14336x128_S256x128_1_0_0_1_n_n.contr.Idx) :
    ((dot_S256x14336_S14336x128_S256x128_1_0_0_1_n_n.rhsIdx j k) 1).val = (j 1).val := by
  unfold DotDims.rhsIdx
  rw [dif_neg (show ¬(1 : Fin S14336x128.rank) ∈ dot_S256x14336_S14336x128_S256x128_1_0_0_1_n_n.rhsBatch by decide),
    dif_pos (show (1 : Fin S14336x128.rank) ∈ dot_S256x14336_S14336x128_S256x128_1_0_0_1_n_n.rhsNonContracting by decide)]
  rfl

/-- The product into a zero accumulator, read at an entry: the sum over the 14336 contraction positions of the
    products of the two operands' entries. -/
theorem matmul_entry (A : FVec Ideal S256x14336 .bf16) (B : FVec Ideal S14336x128 .bf16) (p : Fin 256) (q : Fin 128) :
    matmul dot_S256x14336_S14336x128_S256x128_1_0_0_1_n_n none A B (constant (F := Ideal) S256x128 .f32 0x00000000#32) (ix2 p q)
      = ∑ j : Fin 14336, A (ix2 p j) * B (ix2 j q) := by
  show FloatOps.matmul dot_S256x14336_S14336x128_S256x128_1_0_0_1_n_n none A B (constant (F := Ideal) S256x128 .f32 0x00000000#32) (ix2 p q) = _
  rw [Ideal.matmul_constant_zero_apply,
    ← Equiv.sum_comp (contrEquiv1 dot_S256x14336_S14336x128_S256x128_1_0_0_1_n_n 14336 rfl rfl).symm]
  refine Finset.sum_congr rfl fun c _ => ?_
  have hc := contrEquiv1_symm_val dot_S256x14336_S14336x128_S256x128_1_0_0_1_n_n 14336 rfl rfl c
  have l : dot_S256x14336_S14336x128_S256x128_1_0_0_1_n_n.lhsIdx (ix2 p q) ((contrEquiv1 dot_S256x14336_S14336x128_S256x128_1_0_0_1_n_n 14336 rfl rfl).symm c) = ix2 p c := by
    funext a; apply Fin.ext
    match a with
    | ⟨0, _⟩ => exact lhs_axis0 _ _
    | ⟨1, _⟩ => exact (lhs_axis1 _ _).trans hc
  have r : dot_S256x14336_S14336x128_S256x128_1_0_0_1_n_n.rhsIdx (ix2 p q) ((contrEquiv1 dot_S256x14336_S14336x128_S256x128_1_0_0_1_n_n 14336 rfl rfl).symm c) = ix2 c q := by
    funext a; apply Fin.ext
    match a with
    | ⟨0, _⟩ => exact (rhs_axis0 _ _).trans hc
    | ⟨1, _⟩ => exact rhs_axis1 _ _
  rw [l, r]

/-! ## The weight block, entry by entry -/

/-- The scales laid along the columns: the `[128, 224]` block given a unit axis, repeated 64 times along it and
    flattened to `[128, 14336]` reads, at `(q, j)`, the scale of row `q` and of the group of 64 columns `j` lies in:
    `j = 64 · (j / 64) + j % 64`. -/
theorem scale_entry (v3 : Vec Ideal S128x224 .f32) (q : Fin 128) (j : Fin 14336) :
    shapeCast S128x14336
        (broadcastTo S128x224x64
          (shapeCast S128x224x1 (shapeCast S128x224x1 v3 shapeCasts_S128x224_S128x224x1) shapeCasts_S128x224x1_S128x224x1)
          broadcasts_S128x224x1_S128x224x64)
        shapeCasts_S128x224x64_S128x14336 (ix2 q j)
      = v3 (ix2 q ⟨j.val / 64, by have := j.isLt; omega⟩) := by
  have hj := j.isLt
  -- the flattening: position (q, j) of [128, 14336] is position (q, j / 64, j % 64) of [128, 224, 64]
  refine (shapeCast_apply _ shapeCasts_S128x224x64_S128x14336 (ix2 q j)
    (ix3 q (⟨j.val / 64, by omega⟩ : Fin 224) (⟨j.val % 64, by omega⟩ : Fin 64)) (by
      rw [Shape.rowMajor_val_three, Shape.rowMajor_val_two]
      show (q.val * 224 + j.val / 64) * 64 + j.val % 64 = q.val * 14336 + j.val
      omega)).trans ?_
  -- the repetition: every position along the last axis reads the unit axis' one entry
  refine (broadcastTo_apply _ broadcasts_S128x224x1_S128x224x64 _
    (ix3 q (⟨j.val / 64, by omega⟩ : Fin 224) (0 : Fin 1)) fun a => ?_).trans ?_
  · match a with
    | ⟨0, _⟩ => rfl
    | ⟨1, _⟩ => rfl
    | ⟨2, _⟩ => rfl
  -- the cast to itself is the identity; the unit axis added keeps the row-major position
  rw [shapeCast_self]
  exact shapeCast_apply v3 shapeCasts_S128x224_S128x224x1 _ (ix2 q ⟨j.val / 64, by omega⟩) (by
    rw [Shape.rowMajor_val_three, Shape.rowMajor_val_two]
    show q.val * 224 + j.val / 64 = (q.val * 224 + j.val / 64) * 1 + 0
    omega)

/-- A dequantised weight of the specification, spelt out: the code book at the code of row `q`, column `j`, times
    the scale of row `q` and of column `j`'s group of 64. -/
theorem deq_entry (v2 : Vec Ideal S128x14336 .i32) (v3 : Vec Ideal S128x224 .f32) (q : Fin 128) (j : Fin 14336) :
    Cert.Spec.deq Cert.Spec.h14336 v2 v3 q j
      = Cert.Spec.nf4 (v2 (ix2 q j)) * v3 (ix2 q ⟨j.val / 64, by have := j.isLt; omega⟩) := rfl

/-- The body's product at an entry: row `p` of the hidden block against row `q` of the dequantised weight block.
    The right operand of the product is the weight block transposed, so its entry `(j, q)` is the weight block's
    entry `(q, j)`; narrowing the weights' format is the identity on the extended reals; a weight is the product of
    two entries: the cascade of selects over the code tests 15, 14, …, 1, which entry by entry is the code book's own
    cascade, and the scale laid along the columns. -/
theorem k1_pay1_entry (v1 : FVec Ideal S256x14336 .bf16) (v2 : Vec Ideal S128x14336 .i32) (v3 : Vec Ideal S128x224 .f32)
    (p : Fin 256) (q : Fin 128) :
    k1_pay1 (F := Ideal) v1 v2 v3 (k1_pay3 (F := Ideal) v2) (k1_pay4 (F := Ideal) v2) (Scalar.ofBits .f32 0x3DA2FAFF#32) (ix2 p q)
      = Cert.Spec.down Cert.Spec.h14336 v1 v2 v3 p q := by
  unfold k1_pay1
  refine (matmul_entry _ _ p q).trans ?_
  show _ = ∑ j : Fin 14336, v1 (ix2 p j) * Cert.Spec.deq Cert.Spec.h14336 v2 v3 q j
  refine Finset.sum_congr rfl fun j _ => ?_
  refine congrArg (v1 (ix2 p j) * ·) ?_
  refine (transpose_ix2_apply _ transposes_S128x14336_p1_0_S14336x128 j q).trans ?_
  refine (truncf_apply _ bitsLt_bf16_f32 (ix2 q j)).trans ?_
  refine (mulf_apply _ _ (ix2 q j)).trans ?_
  rw [deq_entry]
  refine congr (congrArg HMul.hMul ?_) (scale_entry v3 q j)
  rfl

theorem out1_3_apply (x0 : Vec Ideal S256x14336 .bf16) (x1 : Vec Ideal S128x14336 .i32) (x2 : Vec Ideal S128x224 .f32)
    (p : Fin 256) (q : Fin 128) :
    out1_3 (F := Ideal) x0 x1 x2 (ix2 p q) = Cert.Spec.down Cert.Spec.h14336 x0 x1 x2 p q := by
  -- the one store fills the whole block with the product; the three loads read the whole input blocks; the hidden
  -- block's cast to its own shape is the identity
  have hz := zero_offsets
  unfold out1_3
  rw [View.canon_unit_zero hz]
  simp only [View.ld_unit_zero (S := S256x14336) hz, View.ld_unit_zero (S := S128x14336) hz,
    View.ld_unit_zero (S := S128x224) hz]
  rw [show k1_pay2 (F := Ideal) x0 = x0 from shapeCast_self x0 shapeCasts_S256x14336_S256x14336]
  exact k1_pay1_entry x0 x1 x2 p q

end Cert.KernelIdeal.KValue

end
-- ==== Proof.K1Array.lean ====
/-
  The second kernel's output array after its grid has run: the blocks written back at the 8 × 32 points tile
  the 2048 × 4096 array, and block (a, b) holds the down projection of rows 256a … of the hidden array against
  rows 128b … of the down weights, so the array is the down projection of the arrays the region found.
-/
import proofs.«429608_j4947802325695_1_alg».proof.Proof.K1Payload

noncomputable section

open scoped BigOperators

namespace Cert.KernelIdeal.KValue

open Cert.KernelIdeal Cert.KernelIdeal.Gen Idealize.ShloMosaic Idealize.ShloMosaic.TcCoe Idealize.ShloMosaic.ValueIdx
open Idealize.ShloMosaic.Pipeline (Dat)

/-- The block index maps, decided over the 8 × 32 grid: the hidden block moves with the output's row block, the
    weight blocks (codes and scales) with the output's column block, every input block spans its whole second
    axis, and the output's block indices stay below 8 and 32. -/
theorem down_index_facts : ∀ t : Fin cfg1.N,
    win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = win1_3.index t (1 : Fin 2)
    ∧ win1_2.index t (1 : Fin 2) = 0
    ∧ win1_3.index t (0 : Fin 2) ≤ 7
    ∧ win1_3.index t (1 : Fin 2) ≤ 31 :=
  (by decide +kernel : ∀ t : Fin grid1.N, _)

/-- Every pair (row block, column block) of the output is some grid point's. -/
theorem down_index_onto : ∀ (a : Fin 8) (b : Fin 32), ∃ t : Fin cfg1.N, win1_3.index t = ![a.val, b.val] :=
  (by decide +kernel : ∀ (a : Fin 8) (b : Fin 32), ∃ t : Fin grid1.N, win1_3.index t = ![a.val, b.val])

/-- The down projection read off blocks: when row `p` of the hidden block is row `r` of the hidden array and row `q` of
    the weight blocks (codes and scales) is row `s` of the weight arrays, the blocks' inner product at `(p, q)` is the
    arrays' at `(r, s)`: the two sums agree term by term. -/
theorem down_of_blocks (A : S2048x14336.Idx → EReal) (C : S4096x14336.Idx → BitVec 32) (G : S4096x224.Idx → EReal)
    (x0 : S256x14336.Idx → EReal) (x1 : S128x14336.Idx → BitVec 32) (x2 : S128x224.Idx → EReal)
    (p : Fin 256) (q : Fin 128) (r : Fin 2048) (s : Fin 4096)
    (h0 : ∀ k : Fin 14336, x0 (ix2 p k) = A (ix2 r k))
    (h1 : ∀ k : Fin 14336, x1 (ix2 q k) = C (ix2 s k))
    (h2 : ∀ g : Fin 224, x2 (ix2 q g) = G (ix2 s g)) :
    Cert.Spec.down Cert.Spec.h14336 x0 x1 x2 p q = Cert.Spec.down Cert.Spec.h14336 A C G r s := by
  unfold Cert.Spec.down Cert.Spec.deq
  refine Finset.sum_congr rfl fun k _ => ?_
  rw [h0, h1, h2]

/-- What grid point `t` writes back is block `t` of the down projection of the arrays the region found: the body
    leaves the inner products of its blocks' rows, and each block's row is the array's row at block index × block
    size + the row inside the block. -/
theorem down_flushed_eq (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal)
          (Cert.Spec.downArr Cert.Spec.h14336 (V c main_v0) (V c main_arg5) (V c main_arg6)) := by
  show (cfg1.win 3).cut (grid1.coords t) ((dat1 V c).after 3 t) = _
  rw [after1_3]
  obtain ⟨e0, e1, e2, e3, e4, e5, e6, e7⟩ := down_index_facts t
  funext j
  obtain ⟨p, q, rfl⟩ : ∃ (p : Fin 256) (q : Fin 128), j = ix2 p q := ⟨j 0, j 1, eq_ix2 j⟩
  show out1_3 (iblk1 V c 0 t) (iblk1 V c 1 t) (iblk1 V c 2 t) (ix2 p q)
      = Cert.Spec.down Cert.Spec.h14336 (V c main_v0) (V c main_arg5) (V c main_arg6)
          (((cfg1.win 3).blk t).view.emb (ix2 p q) 0) (((cfg1.win 3).blk t).view.emb (ix2 p q) 1)
  refine (out1_3_apply (iblk1 V c 0 t) (iblk1 V c 1 t) (iblk1 V c 2 t) p q).trans ?_
  refine down_of_blocks (V c main_v0) (V c main_arg5) (V c main_arg6) (iblk1 V c 0 t) (iblk1 V c 1 t) (iblk1 V c 2 t)
    p q _ _ (fun k => ?_) (fun k => ?_) (fun g => ?_)
  · show V c main_v0 (((cfg1.win 0).blk t).view.emb (ix2 p k)) = V c main_v0 (ix2 _ k)
    refine congrArg (V c main_v0) (funext fun a => Fin.ext ?_)
    match a with
    | ⟨0, _⟩ =>
      show win1_0.index t (0 : Fin 2) * 256 + 1 * p.val = win1_3.index t (0 : Fin 2) * 256 + 1 * p.val
      omega
    | ⟨1, _⟩ =>
      show win1_0.index t (1 : Fin 2) * 14336 + 1 * k.val = k.val
      omega
  · show V c main_arg5 (((cfg1.win 1).blk t).view.emb (ix2 q k)) = V c main_arg5 (ix2 _ k)
    refine congrArg (V c main_arg5) (funext fun a => Fin.ext ?_)
    match a with
    | ⟨0, _⟩ =>
      show win1_1.index t (0 : Fin 2) * 128 + 1 * q.val = win1_3.index t (1 : Fin 2) * 128 + 1 * q.val
      omega
    | ⟨1, _⟩ =>
      show win1_1.index t (1 : Fin 2) * 14336 + 1 * k.val = k.val
      omega
  · show V c main_arg6 (((cfg1.win 2).blk t).view.emb (ix2 q g)) = V c main_arg6 (ix2 _ g)
    refine congrArg (V c main_arg6) (funext fun a => Fin.ext ?_)
    match a with
    | ⟨0, _⟩ =>
      show win1_2.index t (0 : Fin 2) * 128 + 1 * q.val = win1_3.index t (1 : Fin 2) * 128 + 1 * q.val
      omega
    | ⟨1, _⟩ =>
      show win1_2.index t (1 : Fin 2) * 224 + 1 * g.val = g.val
      omega

/-- An index of the output array is in point `t`'s block iff on each axis it lies in the block's range: from block
    index × block size, for one block size. -/
theorem down_mem_blk (t : Fin cfg1.N) (i : S2048x4096.Idx) :
    i ∈ ((cfg1.win 3).blk t).view.set ↔ ∀ a : Fin 2, win1_3.index t a * S256x128.size a ≤ (i a).val
      ∧ (i a).val < win1_3.index t a * S256x128.size a + S256x128.size a := by
  show i ∈ ((View.whole main_v1).slice (win1_3.rect t)).set ↔ _
  rw [View.set_slice_whole, Rect.mem_set_unit]
  exact Iff.rfl

/-- The blocks tile the array: the index `(r, s)` lies in the block of the point whose output block index is
    `(r / 256, s / 128)`. -/
theorem down_cover (i : S2048x4096.Idx) :
    ∃ t : Fin cfg1.N, (cfg1.win 3).flush t = true ∧ i ∈ ((cfg1.win 3).blk t).view.set := by
  have hi0 : (i 0).val < 2048 := (i 0).isLt
  have hi1 : (i 1).val < 4096 := (i 1).isLt
  obtain ⟨t, ht⟩ := down_index_onto ⟨(i 0).val / 256, by omega⟩ ⟨(i 1).val / 128, by omega⟩
  have q0 : win1_3.index t (0 : Fin 2) = (i 0).val / 256 := congrFun ht 0
  have q1 : win1_3.index t (1 : Fin 2) = (i 1).val / 128 := congrFun ht 1
  refine ⟨t, flush1_3 t, ?_⟩
  rw [down_mem_blk]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 128 ≤ (i 1).val ∧ (i 1).val < win1_3.index t (1 : Fin 2) * 128 + 128
    omega

theorem down_array (V : (c : Dev nD) → (b : Ref sig .tc) → Buf (Elt Ideal) ((c : Thread nD τ).loc b)) (c : Dev nD) :
    (dat1 (F := Ideal) V c).arrAt 3 cfg1.N
      = Cert.Spec.downArr Cert.Spec.h14336 (V c main_v0) (V c main_arg5) (V c main_arg6) :=
  (dat1 (F := Ideal) V c).arrAt_eq_of_cover 3 _ (fun t _ => down_flushed_eq V c t) down_cover

end Cert.KernelIdeal.KValue

end
-- ==== Proof.KernelValue.lean ====
/-
  The kernel program's result buffer after both regions, as the specification's function of the launch
  contents of the arguments: the second region finds the code and scale arrays as launched and the hidden
  array at what the first region left, which is the hidden activations of the arguments as launched; what
  it leaves in the result buffer is the down projection of those.
-/
import proofs.«429608_j4947802325695_1_alg».proof.Proof.K0Array
import proofs.«429608_j4947802325695_1_alg».proof.Proof.K1Array

noncomputable section

open scoped BigOperators

namespace Cert.KernelIdeal.KValue

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg)

/-- The second region finds the hidden array at the hidden activations of the arguments as launched. -/
theorem entry_hidden (c : Dev nD) :
    V1 m ρ c main_v0 = Cert.Spec.hiddenArr Cert.Spec.h4096 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W1_arr m ρ c 5).trans (hidden_array (V0 m ρ) c)

/-- The first region does not touch the down codes. -/
theorem entry_codes (c : Dev nD) : V1 m ρ c main_arg5 = m ((c.tc : Thread nD τ).loc main_arg5) :=
  W1_of_ne m ρ c main_arg5 (by decide)

/-- The first region does not touch the down scales. -/
theorem entry_scales (c : Dev nD) : V1 m ρ c main_arg6 = m ((c.tc : Thread nD τ).loc main_arg6) :=
  W1_of_ne m ρ c main_arg6 (by decide)

/-- After both regions the result buffer holds the specification's result of the arguments as launched. -/
theorem result_value (c : Dev nD) :
    W2 (F := Ideal) m ρ c (Proc.devRef .tc main_v1) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W2_arr m ρ c 3).trans ((down_array (V1 m ρ) c).trans ?_)
  rw [entry_hidden m ρ c, entry_codes m ρ c, entry_scales m ρ c]
  rfl

end Cert.KernelIdeal.KValue

end
-- ==== Proof.RefTerm.lean ====
/-
  The reference's result as one term of its argument arrays: the operations of its program composed.
  Each weight matrix is a table lookup of the codes (a negative code first moved up by 16), regrouped
  by 64 columns, scaled group by group and flattened again; then two products with the transposed
  weights, `g · (1 / (1 + exp (-g)))` times the second product, and the product with the transposed
  down weights.
-/
import proofs.«429608_j4947802325695_1_alg».proof.Proof.Gen.ReferenceIdeal

noncomputable section

namespace Cert.ReferenceIdeal.RefValue

open Cert.ReferenceIdeal Cert.ReferenceIdeal.Gen Idealize.ShloMosaic

variable {F : FTy → Type} [FloatOps F]

/-- The sixteen codebook entries as an array. -/
def table : FVec F S16 .f32 := fun i => FloatOps.ofBits .f32 (lit0 (S16.rowMajor i))

/-- A code below zero is moved up by 16 (gate and up shape). -/
def wrapGU (codes : IVec S14336x4096 32) : IVec S14336x4096 32 :=
  select (cmpi .slt codes (broadcastInDim S14336x4096 ![] bcast_S_S14336x4096 (constantI S_ 32 0#32)))
    (addi codes (broadcastInDim S14336x4096 ![] bcast_S_S14336x4096 (constantI S_ 32 16#32))) codes

/-- A code below zero is moved up by 16 (down shape). -/
def wrapD (codes : IVec S4096x14336 32) : IVec S4096x14336 32 :=
  select (cmpi .slt codes (broadcastInDim S4096x14336 ![] bcast_S_S4096x14336 (constantI S_ 32 0#32)))
    (addi codes (broadcastInDim S4096x14336 ![] bcast_S_S4096x14336 (constantI S_ 32 16#32))) codes

/-- The gate (or up) weights: lookup, regroup by 64, scale, flatten. -/
def deqGU (codes : IVec S14336x4096 32) (scale : FVec F S14336x64 .f32) : FVec F S14336x4096 .f32 :=
  shapeCast S14336x4096
    (mulf
      (shapeCast S14336x64x64
        (Host.gather gather_S16_S14336x4096x1_S14336x4096_n_0_n_n_0_2_1 (table (F := F))
          (broadcastInDim S14336x4096x1 ![0, 1] bcast_S14336x4096_S14336x4096x1_0_1 (wrapGU codes)))
        shapeCasts_S14336x4096_S14336x64x64)
      (broadcastInDim S14336x64x64 ![0, 1, 2] bcast_S14336x64x1_S14336x64x64_0_1_2
        (broadcastInDim S14336x64x1 ![0, 1] bcast_S14336x64_S14336x64x1_0_1 scale)))
    shapeCasts_S14336x64x64_S14336x4096

/-- The down weights: lookup, regroup by 64, scale, flatten. -/
def deqD (codes : IVec S4096x14336 32) (scale : FVec F S4096x224 .f32) : FVec F S4096x14336 .f32 :=
  shapeCast S4096x14336
    (mulf
      (shapeCast S4096x224x64
        (Host.gather gather_S16_S4096x14336x1_S4096x14336_n_0_n_n_0_2_1 (table (F := F))
          (broadcastInDim S4096x14336x1 ![0, 1] bcast_S4096x14336_S4096x14336x1_0_1 (wrapD codes)))
        shapeCasts_S4096x14336_S4096x224x64)
      (broadcastInDim S4096x224x64 ![0, 1, 2] bcast_S4096x224x1_S4096x224x64_0_1_2
        (broadcastInDim S4096x224x1 ![0, 1] bcast_S4096x224_S4096x224x1_0_1 scale)))
    shapeCasts_S4096x224x64_S4096x14336

/-- `a · (1 / (1 + exp (-a)))`, entry by entry. -/
def silu (a : FVec F S2048x14336 .f32) : FVec F S2048x14336 .f32 :=
  mulf a
    (Host.divf (broadcastInDim S2048x14336 ![] bcast_S_S2048x14336 (constant S_ .f32 0x3F800000#32))
      (addf (broadcastInDim S2048x14336 ![] bcast_S_S2048x14336 (constant S_ .f32 0x3F800000#32))
        (Host.exp (Host.negf a))))

/-- The product of `x` with the transposed gate (or up) weights. -/
def proj (x : FVec F S2048x4096 .f32) (w : FVec F S14336x4096 .f32) : FVec F S2048x14336 .f32 :=
  Host.dotGeneral dot_S2048x4096_S4096x14336_S2048x14336_1_0_0_1_n_n none x
    (transpose S4096x14336 [1, 0] w transposes_S14336x4096_S4096x14336_1_0)

/-- The reference's result array as a function of its seven argument arrays. -/
def refOut (x : FVec F S2048x4096 .f32) (gc : IVec S14336x4096 32) (gs : FVec F S14336x64 .f32)
    (uc : IVec S14336x4096 32) (us : FVec F S14336x64 .f32) (dc : IVec S4096x14336 32) (ds : FVec F S4096x224 .f32) :
    FVec F S2048x4096 .f32 :=
  Host.dotGeneral dot_S2048x14336_S14336x4096_S2048x4096_1_0_0_1_n_n none
    (mulf (silu (proj x (deqGU gc gs))) (proj x (deqGU uc us)))
    (transpose S14336x4096 [1, 0] (deqD dc ds) transposes_S4096x14336_S14336x4096_1_0)

end Cert.ReferenceIdeal.RefValue

end
-- ==== Proof.RefRun.lean ====
/-
  The reference program's run: its operations in order, and every weakly fair execution ends with the
  result buffer at the composed term `refOut` of the argument arrays, the arguments unchanged.
-/
import proofs.«429608_j4947802325695_1_alg».proof.Proof.RefTerm
import Idealize.ShloMosaic.Lib.StableHlo.Run

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's fifty-nine operations in order: the three dequantisations (gate, up, down: fourteen or fifteen
    operations each, the first also writing the codebook), the gate product, the nine operations of the
    logistic-weighted activation run over the call's own buffers on the gate product, then the up product, the
    entrywise product, and the down product. -/
abbrev ops : List (HloOp τ sig (Elt F)) :=
  [ StableHlo.nullary main_cst (fun i => FloatOps.ofBits .f32 (lit0 (S16.rowMajor i))),
    StableHlo.nullary main_c (constantI S_ 32 0#32),
    StableHlo.unary main_c main_v0 (broadcastInDim S14336x4096 ![] bcast_S_S14336x4096 : (⟨S_, .i32⟩ : BufTy).Contents (Elt F) → (⟨S14336x4096, .i32⟩ : BufTy).Contents (Elt F)),
    StableHlo.binary main_arg1 main_v0 main_v1 (cmpi .slt : (⟨S14336x4096, .i32⟩ : BufTy).Contents (Elt F) → (⟨S14336x4096, .i32⟩ : BufTy).Contents (Elt F) → (⟨S14336x4096, .i1⟩ : BufTy).Contents (Elt F)),
    StableHlo.nullary main_c_0 (constantI S_ 32 16#32),
    StableHlo.unary main_c_0 main_v2 (broadcastInDim S14336x4096 ![] bcast_S_S14336x4096 : (⟨S_, .i32⟩ : BufTy).Contents (Elt F) → (⟨S14336x4096, .i32⟩ : BufTy).Contents (Elt F)),
    StableHlo.binary main_arg1 main_v2 main_v3 (addi : (⟨S14336x4096, .i32⟩ : BufTy).Contents (Elt F) → (⟨S14336x4096, .i32⟩ : BufTy).Contents (Elt F) → (⟨S14336x4096, .i32⟩ : BufTy).Contents (Elt F)),
    StableHlo.ternary main_v1 main_v3 main_arg1 main_v4 (select : (⟨S14336x4096, .i1⟩ : BufTy).Contents (Elt F) → (⟨S14336x4096, .i32⟩ : BufTy).Contents (Elt F) → (⟨S14336x4096, .i32⟩ : BufTy).Contents (Elt F) → (⟨S14336x4096, .i32⟩ : BufTy).Contents (Elt F)),
    StableHlo.unary main_v4 main_v5 (broadcastInDim S14336x4096x1 ![0, 1] bcast_S14336x4096_S14336x4096x1_0_1 : (⟨S14336x4096, .i32⟩ : BufTy).Contents (Elt F) → (⟨S14336x4096x1, .i32⟩ : BufTy).Contents (Elt F)),
    StableHlo.binary main_cst main_v5 main_v6 ((fun x i => Host.gather gather_S16_S14336x4096x1_S14336x4096_n_0_n_n_0_2_1 x i) : (⟨S16, .f32⟩ : BufTy).Contents (Elt F) → (⟨S14336x4096x1, .i32⟩ : BufTy).Contents (Elt F) → (⟨S14336x4096, .f32⟩ : BufTy).Contents (Elt F)),
    StableHlo.reshape main_v6 main_v7 rfl shapeCasts_S14336x4096_S14336x64x64,
    StableHlo.unary main_arg2 main_v8 (broadcastInDim S14336x64x1 ![0, 1] bcast_S14336x64_S14336x64x1_0_1 : (⟨S14336x64, .f32⟩ : BufTy).Contents (Elt F) → (⟨S14336x64x1, .f32⟩ : BufTy).Contents (Elt F)),
    StableHlo.unary main_v8 main_v9 (broadcastInDim S14336x64x64 ![0, 1, 2] bcast_S14336x64x1_S14336x64x64_0_1_2 : (⟨S14336x64x1, .f32⟩ : BufTy).Contents (Elt F) → (⟨S14336x64x64, .f32⟩ : BufTy).Contents (Elt F)),
    StableHlo.binary main_v7 main_v9 main_v10 (mulf : (⟨S14336x64x64, .f32⟩ : BufTy).Contents (Elt F) → (⟨S14336x64x64, .f32⟩ : BufTy).Contents (Elt F) → (⟨S14336x64x64, .f32⟩ : BufTy).Contents (Elt F)),
    StableHlo.reshape main_v10 main_v11 rfl shapeCasts_S14336x64x64_S14336x4096,
    StableHlo.nullary main_c_1 (constantI S_ 32 0#32),
    StableHlo.unary main_c_1 main_v12 (broadcastInDim S14336x4096 ![] bcast_S_S14336x4096 : (⟨S_, .i32⟩ : BufTy).Contents (Elt F) → (⟨S14336x4096, .i32⟩ : BufTy).Contents (Elt F)),
    StableHlo.binary main_arg3 main_v12 main_v13 (cmpi .slt : (⟨S14336x4096, .i32⟩ : BufTy).Contents (Elt F) → (⟨S14336x4096, .i32⟩ : BufTy).Contents (Elt F) → (⟨S14336x4096, .i1⟩ : BufTy).Contents (Elt F)),
    StableHlo.nullary main_c_2 (constantI S_ 32 16#32),
    StableHlo.unary main_c_2 main_v14 (broadcastInDim S14336x4096 ![] bcast_S_S14336x4096 : (⟨S_, .i32⟩ : BufTy).Contents (Elt F) → (⟨S14336x4096, .i32⟩ : BufTy).Contents (Elt F)),
    StableHlo.binary main_arg3 main_v14 main_v15 (addi : (⟨S14336x4096, .i32⟩ : BufTy).Contents (Elt F) → (⟨S14336x4096, .i32⟩ : BufTy).Contents (Elt F) → (⟨S14336x4096, .i32⟩ : BufTy).Contents (Elt F)),
    StableHlo.ternary main_v13 main_v15 main_arg3 main_v16 (select : (⟨S14336x4096, .i1⟩ : BufTy).Contents (Elt F) → (⟨S14336x4096, .i32⟩ : BufTy).Contents (Elt F) → (⟨S14336x4096, .i32⟩ : BufTy).Contents (Elt F) → (⟨S14336x4096, .i32⟩ : BufTy).Contents (Elt F)),
    StableHlo.unary main_v16 main_v17 (broadcastInDim S14336x4096x1 ![0, 1] bcast_S14336x4096_S14336x4096x1_0_1 : (⟨S14336x4096, .i32⟩ : BufTy).Contents (Elt F) → (⟨S14336x4096x1, .i32⟩ : BufTy).Contents (Elt F)),
    StableHlo.binary main_cst main_v17 main_v18 ((fun x i => Host.gather gather_S16_S14336x4096x1_S14336x4096_n_0_n_n_0_2_1 x i) : (⟨S16, .f32⟩ : BufTy).Contents (Elt F) → (⟨S14336x4096x1, .i32⟩ : BufTy).Contents (Elt F) → (⟨S14336x4096, .f32⟩ : BufTy).Contents (Elt F)),
    StableHlo.reshape main_v18 main_v19 rfl shapeCasts_S14336x4096_S14336x64x64,
    StableHlo.unary main_arg4 main_v20 (broadcastInDim S14336x64x1 ![0, 1] bcast_S14336x64_S14336x64x1_0_1 : (⟨S14336x64, .f32⟩ : BufTy).Contents (Elt F) → (⟨S14336x64x1, .f32⟩ : BufTy).Contents (Elt F)),
    StableHlo.unary main_v20 main_v21 (broadcastInDim S14336x64x64 ![0, 1, 2] bcast_S14336x64x1_S14336x64x64_0_1_2 : (⟨S14336x64x1, .f32⟩ : BufTy).Contents (Elt F) → (⟨S14336x64x64, .f32⟩ : BufTy).Contents (Elt F)),
    StableHlo.binary main_v19 main_v21 main_v22 (mulf : (⟨S14336x64x64, .f32⟩ : BufTy).Contents (Elt F) → (⟨S14336x64x64, .f32⟩ : BufTy).Contents (Elt F) → (⟨S14336x64x64, .f32⟩ : BufTy).Contents (Elt F)),
    StableHlo.reshape main_v22 main_v23 rfl shapeCasts_S14336x64x64_S14336x4096,
    StableHlo.nullary main_c_3 (constantI S_ 32 0#32),
    StableHlo.unary main_c_3 main_v24 (broadcastInDim S4096x14336 ![] bcast_S_S4096x14336 : (⟨S_, .i32⟩ : BufTy).Contents (Elt F) → (⟨S4096x14336, .i32⟩ : BufTy).Contents (Elt F)),
    StableHlo.binary main_arg5 main_v24 main_v25 (cmpi .slt : (⟨S4096x14336, .i32⟩ : BufTy).Contents (Elt F) → (⟨S4096x14336, .i32⟩ : BufTy).Contents (Elt F) → (⟨S4096x14336, .i1⟩ : BufTy).Contents (Elt F)),
    StableHlo.nullary main_c_4 (constantI S_ 32 16#32),
    StableHlo.unary main_c_4 main_v26 (broadcastInDim S4096x14336 ![] bcast_S_S4096x14336 : (⟨S_, .i32⟩ : BufTy).Contents (Elt F) → (⟨S4096x14336, .i32⟩ : BufTy).Contents (Elt F)),
    StableHlo.binary main_arg5 main_v26 main_v27 (addi : (⟨S4096x14336, .i32⟩ : BufTy).Contents (Elt F) → (⟨S4096x14336, .i32⟩ : BufTy).Contents (Elt F) → (⟨S4096x14336, .i32⟩ : BufTy).Contents (Elt F)),
    StableHlo.ternary main_v25 main_v27 main_arg5 main_v28 (select : (⟨S4096x14336, .i1⟩ : BufTy).Contents (Elt F) → (⟨S4096x14336, .i32⟩ : BufTy).Contents (Elt F) → (⟨S4096x14336, .i32⟩ : BufTy).Contents (Elt F) → (⟨S4096x14336, .i32⟩ : BufTy).Contents (Elt F)),
    StableHlo.unary main_v28 main_v29 (broadcastInDim S4096x14336x1 ![0, 1] bcast_S4096x14336_S4096x14336x1_0_1 : (⟨S4096x14336, .i32⟩ : BufTy).Contents (Elt F) → (⟨S4096x14336x1, .i32⟩ : BufTy).Contents (Elt F)),
    StableHlo.binary main_cst main_v29 main_v30 ((fun x i => Host.gather gather_S16_S4096x14336x1_S4096x14336_n_0_n_n_0_2_1 x i) : (⟨S16, .f32⟩ : BufTy).Contents (Elt F) → (⟨S4096x14336x1, .i32⟩ : BufTy).Contents (Elt F) → (⟨S4096x14336, .f32⟩ : BufTy).Contents (Elt F)),
    StableHlo.reshape main_v30 main_v31 rfl shapeCasts_S4096x14336_S4096x224x64,
    StableHlo.unary main_arg6 main_v32 (broadcastInDim S4096x224x1 ![0, 1] bcast_S4096x224_S4096x224x1_0_1 : (⟨S4096x224, .f32⟩ : BufTy).Contents (Elt F) → (⟨S4096x224x1, .f32⟩ : BufTy).Contents (Elt F)),
    StableHlo.unary main_v32 main_v33 (broadcastInDim S4096x224x64 ![0, 1, 2] bcast_S4096x224x1_S4096x224x64_0_1_2 : (⟨S4096x224x1, .f32⟩ : BufTy).Contents (Elt F) → (⟨S4096x224x64, .f32⟩ : BufTy).Contents (Elt F)),
    StableHlo.binary main_v31 main_v33 main_v34 (mulf : (⟨S4096x224x64, .f32⟩ : BufTy).Contents (Elt F) → (⟨S4096x224x64, .f32⟩ : BufTy).Contents (Elt F) → (⟨S4096x224x64, .f32⟩ : BufTy).Contents (Elt F)),
    StableHlo.reshape main_v34 main_v35 rfl shapeCasts_S4096x224x64_S4096x14336,
    StableHlo.unary main_v11 main_v36 ((transpose S4096x14336 [1, 0] · transposes_S14336x4096_S4096x14336_1_0) : (⟨S14336x4096, .f32⟩ : BufTy).Contents (Elt F) → (⟨S4096x14336, .f32⟩ : BufTy).Contents (Elt F)),
    StableHlo.binary main_arg0 main_v36 main_v37 ((fun l r => Host.dotGeneral dot_S2048x4096_S4096x14336_S2048x14336_1_0_0_1_n_n none l r) : (⟨S2048x4096, .f32⟩ : BufTy).Contents (Elt F) → (⟨S4096x14336, .f32⟩ : BufTy).Contents (Elt F) → (⟨S2048x14336, .f32⟩ : BufTy).Contents (Elt F)),
    StableHlo.TRef.unary (.of main_v37) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S2048x14336 ![] bcast_S_S2048x14336),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S2048x14336 ![] bcast_S_S2048x14336),
    StableHlo.TRef.binary main_call0.v4 main_call0.v3 main_call0.v5 Host.divf,
    StableHlo.TRef.binary (.of main_v37) main_call0.v5 main_call0.v6 mulf,
    StableHlo.unary main_v23 main_v39 ((transpose S4096x14336 [1, 0] · transposes_S14336x4096_S4096x14336_1_0) : (⟨S14336x4096, .f32⟩ : BufTy).Contents (Elt F) → (⟨S4096x14336, .f32⟩ : BufTy).Contents (Elt F)),
    StableHlo.binary main_arg0 main_v39 main_v40 ((fun l r => Host.dotGeneral dot_S2048x4096_S4096x14336_S2048x14336_1_0_0_1_n_n none l r) : (⟨S2048x4096, .f32⟩ : BufTy).Contents (Elt F) → (⟨S4096x14336, .f32⟩ : BufTy).Contents (Elt F) → (⟨S2048x14336, .f32⟩ : BufTy).Contents (Elt F)),
    StableHlo.binary main_v38 main_v40 main_v41 (mulf : (⟨S2048x14336, .f32⟩ : BufTy).Contents (Elt F) → (⟨S2048x14336, .f32⟩ : BufTy).Contents (Elt F) → (⟨S2048x14336, .f32⟩ : BufTy).Contents (Elt F)),
    StableHlo.unary main_v35 main_v42 ((transpose S14336x4096 [1, 0] · transposes_S4096x14336_S14336x4096_1_0) : (⟨S4096x14336, .f32⟩ : BufTy).Contents (Elt F) → (⟨S14336x4096, .f32⟩ : BufTy).Contents (Elt F)),
    StableHlo.binary main_v41 main_v42 main_v43 ((fun l r => Host.dotGeneral dot_S2048x14336_S14336x4096_S2048x4096_1_0_0_1_n_n none l r) : (⟨S2048x14336, .f32⟩ : BufTy).Contents (Elt F) → (⟨S14336x4096, .f32⟩ : BufTy).Contents (Elt F) → (⟨S2048x4096, .f32⟩ : BufTy).Contents (Elt F)) ]

-- about sixty sequencing steps are reassociated, one level of recursion each
set_option maxRecDepth 4096 in
/-- The program is that straight line: the called function's definition unfolded at its call and the record at its
    fields, both sides are one chain of steps once sequencing is reassociated. -/
theorem main_eq (c : Dev nD) : main (F := F) c = seq ops := by
  simp only [main, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., unary_bufs_sub ..,
    unary_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    reshape_bufs_sub .., unary_bufs_sub .., unary_bufs_sub .., binary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., reshape_bufs_sub .., unary_bufs_sub .., unary_bufs_sub .., binary_bufs_sub ..,
    reshape_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    unary_bufs_sub .., binary_bufs_sub .., binary_bufs_sub .., unary_bufs_sub .., binary_bufs_sub ..⟩

attribute [local irreducible] Host.gather transpose shapeCast broadcastInDim in
set_option maxRecDepth 8192 in
set_option maxHeartbeats 400000 in
/-- The fold of the operations at the result buffer is `refOut` of the argument buffers: each operation's result
    at its own buffer is its function of what its operands' buffers hold, and at any other buffer what was there;
    the typed references of the called function carry values along the identity. The lookup, the regroupings, the
    transposes and the broadcasts stay folded: the equation never looks inside them. -/
theorem out_eq (V : Valuation τ sig (Elt F)) :
    after ops V (main_v43 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  simp only [TRef.ofBuf, TRef.toBuf, cast_eq]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- Every weakly fair execution of the reference ends with its result at `refOut` of the arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun _ h c => ⟨(h c main_v43).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.RefValue

end
-- ==== Proof.RefValue.lean ====
/-
  The reference's term read index by index: where every code lies in 0, …, 15 the table lookup is the
  codebook entry of the code, and the composed operations are the specification's sums.
-/
import proofs.«429608_j4947802325695_1_alg».proof.Proof.RefTerm
import proofs.«429608_j4947802325695_1_alg».proof.Proof.Spec
import Idealize.ShloMosaic.Lib.ValueIdx
import Idealize.ShloMosaic.Lib.Pipeline.Value
import Idealize.ShloMosaic.PureOps.Ideal.Laws
import Idealize.ShloMosaic.Lib.IdealHost
import Idealize.ShloMosaic.Lib.ValueLayout
import Idealize.ShloMosaic.Lib.StackMember

noncomputable section

open scoped BigOperators

namespace Cert.ReferenceIdeal.RefValue

open Cert.ReferenceIdeal Cert.ReferenceIdeal.Gen Idealize.ShloMosaic Idealize.ShloMosaic.ValueIdx

/-- The table at position `n` holds the `n`-th literal word. -/
theorem table_at (n : Nat) (h : n < 16) :
    table (F := Ideal) (ix1 (⟨n, h⟩ : Fin 16)) = Ideal.ofBits .f32 (lit0 ⟨n, h⟩) := by
  unfold table
  have e : S16.rowMajor (ix1 (⟨n, h⟩ : Fin 16)) = ⟨n, h⟩ := Fin.ext (by rw [Shape.rowMajor_val_one])
  rw [e]; rfl

/-- The codebook at the word of `n` is the `n`-th literal word's value. -/
theorem nf4_ofNat (n : Nat) (h : n < 16) :
    Cert.Spec.nf4 (BitVec.ofNat 32 n) = Ideal.ofBits .f32 (lit0 ⟨n, h⟩) := by
  interval_cases n <;>
    (simp [Cert.Spec.nf4, Scalar.select, IntOp.cmpi, -Ideal.ofBits_one_f32, -Ideal.ofBits_zero_f32] <;> rfl)

/-- The table at the clamped signed reading of an in-range code is the codebook entry of the code. -/
theorem table_code (c : BitVec 32) (h0 : 0 ≤ c.toInt) (h1 : c.toInt < 16) (hb : min c.toInt.toNat (16 - 1) < 16) :
    table (F := Ideal) (ix1 (⟨min c.toInt.toNat (16 - 1), hb⟩ : Fin 16)) = Cert.Spec.nf4 c := by
  have e := BitVec.toInt_eq_toNat_cond c
  have hlt := c.isLt
  have hn : c.toNat < 16 := by omega
  have hm : min c.toInt.toNat (16 - 1) = c.toNat := by omega
  have hi : (⟨min c.toInt.toNat (16 - 1), hb⟩ : Fin 16) = ⟨c.toNat, hn⟩ := Fin.ext hm
  rw [hi, table_at, ← nf4_ofNat c.toNat hn, BitVec.ofNat_toNat, BitVec.setWidth_eq]

/-- A word whose signed reading is not negative is not below zero. -/
theorem slt_zero_of_nonneg (c : BitVec 32) (h0 : 0 ≤ c.toInt) : IntOp.cmpi .slt c 0#32 = 0#1 := by
  have hd : decide (c.toInt < 0) = false := decide_eq_false (not_lt.mpr h0)
  simp [IntOp.cmpi, BitVec.slt, hd]

/-- A code that is not negative is left as it is (gate and up shape). -/
theorem wrapGU_apply (codes : IVec S14336x4096 32) (i : S14336x4096.Idx) (h0 : 0 ≤ (codes i).toInt) :
    wrapGU codes i = codes i := by
  unfold wrapGU
  rw [select_apply]
  have hc : cmpi .slt codes (broadcastInDim S14336x4096 ![] bcast_S_S14336x4096 (constantI S_ 32 0#32)) i = 0#1 := by
    show IntOp.cmpi .slt (codes i) (broadcastInDim S14336x4096 ![] bcast_S_S14336x4096 (constantI S_ 32 0#32) i) = 0#1
    rw [broadcastInDim_scalar_apply, constantI_apply]
    exact slt_zero_of_nonneg _ h0
  rw [hc, select_zero]

/-- A code that is not negative is left as it is (down shape). -/
theorem wrapD_apply (codes : IVec S4096x14336 32) (i : S4096x14336.Idx) (h0 : 0 ≤ (codes i).toInt) :
    wrapD codes i = codes i := by
  unfold wrapD
  rw [select_apply]
  have hc : cmpi .slt codes (broadcastInDim S4096x14336 ![] bcast_S_S4096x14336 (constantI S_ 32 0#32)) i = 0#1 := by
    show IntOp.cmpi .slt (codes i) (broadcastInDim S4096x14336 ![] bcast_S_S4096x14336 (constantI S_ 32 0#32) i) = 0#1
    rw [broadcastInDim_scalar_apply, constantI_apply]
    exact slt_zero_of_nonneg _ h0
  rw [hc, select_zero]

/-- The lookup at `(r, k)` reads the table at the start index there, read signed and clamped (gate and up shape). -/
theorem gatherGU_apply (idx : IVec S14336x4096x1 32) (y : S14336x4096.Idx)
    (hb : min (idx (takeIdx y)).toInt.toNat (16 - 1) < 16) :
    Host.gather gather_S16_S14336x4096x1_S14336x4096_n_0_n_n_0_2_1 (table (F := Ideal)) idx y
      = table (F := Ideal) (ix1 ⟨min (idx (takeIdx y)).toInt.toNat (16 - 1), hb⟩) :=
  gather_take_apply (by norm_num) gather_S16_S14336x4096x1_S14336x4096_n_0_n_n_0_2_1_wf (table (F := Ideal)) idx y

/-- The codes with a trailing unit axis, read at `(r, k, 0)` (gate and up shape). -/
theorem bcastCodesGU_apply (c : IVec S14336x4096 32) (r : Fin 14336) (k : Fin 4096) :
    broadcastInDim S14336x4096x1 ![0, 1] bcast_S14336x4096_S14336x4096x1_0_1 c (takeIdx (ix2 r k)) = c (ix2 r k) :=
  broadcastInDim_apply _ _ c _ (ix2 r k) fun a => match a with
    | ⟨0, _⟩ => rfl
    | ⟨1, _⟩ => rfl

/-- The scales broadcast along each group of 64, read at `(r, g, m)` (gate and up shape). -/
theorem bcastScaleGU_apply (s : FVec Ideal S14336x64 .f32) (r : Fin 14336) (g : Fin 64) (m : Fin 64) :
    broadcastInDim S14336x64x64 ![0, 1, 2] bcast_S14336x64x1_S14336x64x64_0_1_2
        (broadcastInDim S14336x64x1 ![0, 1] bcast_S14336x64_S14336x64x1_0_1 s) (ix3 r g m) = s (ix2 r g) := by
  refine (broadcastInDim_apply _ _ _ _ (ix3 r g (0 : Fin 1)) fun a => match a with
    | ⟨0, _⟩ => rfl
    | ⟨1, _⟩ => rfl
    | ⟨2, _⟩ => rfl).trans ?_
  exact broadcastInDim_apply _ _ s _ (ix2 r g) fun a => match a with
    | ⟨0, _⟩ => rfl
    | ⟨1, _⟩ => rfl

/-- Regrouping a row of 4096 by 64: entry `(r, g, m)` is entry `(r, 64 g + m)`. -/
theorem regroupGU_apply {α : Type} (v : S14336x4096.Idx → α) (r : Fin 14336) (k : Fin 4096) (g : Fin 64) (m : Fin 64)
    (hk : k.val = 64 * g.val + m.val) :
    shapeCast S14336x64x64 v shapeCasts_S14336x4096_S14336x64x64 (ix3 r g m) = v (ix2 r k) := by
  refine shapeCast_apply v _ _ (ix2 r k) ?_
  rw [Shape.rowMajor_val_two, Shape.rowMajor_val_three]
  show r.val * 4096 + k.val = (r.val * 64 + g.val) * 64 + m.val
  omega

/-- Flattening the groups again: entry `(r, 64 g + m)` is entry `(r, g, m)`. -/
theorem flattenGU_apply {α : Type} (v : S14336x64x64.Idx → α) (r : Fin 14336) (k : Fin 4096) (g : Fin 64) (m : Fin 64)
    (hk : k.val = 64 * g.val + m.val) :
    shapeCast S14336x4096 v shapeCasts_S14336x64x64_S14336x4096 (ix2 r k) = v (ix3 r g m) := by
  refine shapeCast_apply v _ _ (ix3 r g m) ?_
  rw [Shape.rowMajor_val_two, Shape.rowMajor_val_three]
  show (r.val * 64 + g.val) * 64 + m.val = r.val * 4096 + k.val
  omega

/-- The lookup of the wrapped codes at `(r, k)` is the codebook entry of the code there (gate and up shape). -/
theorem lookupGU_apply (codes : IVec S14336x4096 32) (hc : ∀ i, 0 ≤ (codes i).toInt ∧ (codes i).toInt < 16)
    (r : Fin 14336) (k : Fin 4096) :
    Host.gather gather_S16_S14336x4096x1_S14336x4096_n_0_n_n_0_2_1 (table (F := Ideal))
        (broadcastInDim S14336x4096x1 ![0, 1] bcast_S14336x4096_S14336x4096x1_0_1 (wrapGU codes)) (ix2 r k)
      = Cert.Spec.nf4 (codes (ix2 r k)) := by
  have e : broadcastInDim S14336x4096x1 ![0, 1] bcast_S14336x4096_S14336x4096x1_0_1 (wrapGU codes) (takeIdx (ix2 r k))
      = codes (ix2 r k) := (bcastCodesGU_apply _ r k).trans (wrapGU_apply codes _ (hc _).1)
  have key : ∀ (c : BitVec 32) (hb : min c.toInt.toNat (16 - 1) < 16), c = codes (ix2 r k) →
      table (F := Ideal) (ix1 ⟨min c.toInt.toNat (16 - 1), hb⟩) = Cert.Spec.nf4 (codes (ix2 r k)) := by
    intro c hb h; subst h; exact table_code _ (hc _).1 (hc _).2 hb
  exact (gatherGU_apply _ _ (by omega)).trans (key _ _ e)

/-- The gate (or up) weight at `(r, k)` is the specification's dequantised weight there. -/
theorem deqGU_apply (codes : IVec S14336x4096 32) (scale : FVec Ideal S14336x64 .f32)
    (hc : ∀ i, 0 ≤ (codes i).toInt ∧ (codes i).toInt < 16) (r : Fin 14336) (k : Fin 4096) :
    deqGU (F := Ideal) codes scale (ix2 r k) = Cert.Spec.deq Cert.Spec.h4096 codes scale r k := by
  have hk : k.val = 64 * (k.val / 64) + k.val % 64 := by omega
  have hg : k.val / 64 < 64 := by have := k.isLt; omega
  have hm : k.val % 64 < 64 := by omega
  unfold deqGU
  rw [flattenGU_apply _ r k ⟨k.val / 64, hg⟩ ⟨k.val % 64, hm⟩ hk, mulf_apply,
    regroupGU_apply _ r k ⟨k.val / 64, hg⟩ ⟨k.val % 64, hm⟩ hk, bcastScaleGU_apply, lookupGU_apply codes hc]
  rfl

/-! The same for the down weights' shape: 4096 rows of 14336 columns, 224 groups of 64. -/

/-- The lookup at `(r, k)` reads the table at the start index there, read signed and clamped (down shape). -/
theorem gatherD_apply (idx : IVec S4096x14336x1 32) (y : S4096x14336.Idx)
    (hb : min (idx (takeIdx y)).toInt.toNat (16 - 1) < 16) :
    Host.gather gather_S16_S4096x14336x1_S4096x14336_n_0_n_n_0_2_1 (table (F := Ideal)) idx y
      = table (F := Ideal) (ix1 ⟨min (idx (takeIdx y)).toInt.toNat (16 - 1), hb⟩) :=
  gather_take_apply (by norm_num) gather_S16_S4096x14336x1_S4096x14336_n_0_n_n_0_2_1_wf (table (F := Ideal)) idx y

/-- The codes with a trailing unit axis, read at `(r, k, 0)` (down shape). -/
theorem bcastCodesD_apply (c : IVec S4096x14336 32) (r : Fin 4096) (k : Fin 14336) :
    broadcastInDim S4096x14336x1 ![0, 1] bcast_S4096x14336_S4096x14336x1_0_1 c (takeIdx (ix2 r k)) = c (ix2 r k) :=
  broadcastInDim_apply _ _ c _ (ix2 r k) fun a => match a with
    | ⟨0, _⟩ => rfl
    | ⟨1, _⟩ => rfl

/-- The scales broadcast along each group of 64, read at `(r, g, m)` (down shape). -/
theorem bcastScaleD_apply (s : FVec Ideal S4096x224 .f32) (r : Fin 4096) (g : Fin 224) (m : Fin 64) :
    broadcastInDim S4096x224x64 ![0, 1, 2] bcast_S4096x224x1_S4096x224x64_0_1_2
        (broadcastInDim S4096x224x1 ![0, 1] bcast_S4096x224_S4096x224x1_0_1 s) (ix3 r g m) = s (ix2 r g) := by
  refine (broadcastInDim_apply _ _ _ _ (ix3 r g (0 : Fin 1)) fun a => match a with
    | ⟨0, _⟩ => rfl
    | ⟨1, _⟩ => rfl
    | ⟨2, _⟩ => rfl).trans ?_
  exact broadcastInDim_apply _ _ s _ (ix2 r g) fun a => match a with
    | ⟨0, _⟩ => rfl
    | ⟨1, _⟩ => rfl

/-- Regrouping a row of 14336 by 64: entry `(r, g, m)` is entry `(r, 64 g + m)`. -/
theorem regroupD_apply {α : Type} (v : S4096x14336.Idx → α) (r : Fin 4096) (k : Fin 14336) (g : Fin 224) (m : Fin 64)
    (hk : k.val = 64 * g.val + m.val) :
    shapeCast S4096x224x64 v shapeCasts_S4096x14336_S4096x224x64 (ix3 r g m) = v (ix2 r k) := by
  refine shapeCast_apply v _ _ (ix2 r k) ?_
  rw [Shape.rowMajor_val_two, Shape.rowMajor_val_three]
  show r.val * 14336 + k.val = (r.val * 224 + g.val) * 64 + m.val
  omega

/-- Flattening the groups again: entry `(r, 64 g + m)` is entry `(r, g, m)`. -/
theorem flattenD_apply {α : Type} (v : S4096x224x64.Idx → α) (r : Fin 4096) (k : Fin 14336) (g : Fin 224) (m : Fin 64)
    (hk : k.val = 64 * g.val + m.val) :
    shapeCast S4096x14336 v shapeCasts_S4096x224x64_S4096x14336 (ix2 r k) = v (ix3 r g m) := by
  refine shapeCast_apply v _ _ (ix3 r g m) ?_
  rw [Shape.rowMajor_val_two, Shape.rowMajor_val_three]
  show (r.val * 224 + g.val) * 64 + m.val = r.val * 14336 + k.val
  omega

/-- The lookup of the wrapped codes at `(r, k)` is the codebook entry of the code there (down shape). -/
theorem lookupD_apply (codes : IVec S4096x14336 32) (hc : ∀ i, 0 ≤ (codes i).toInt ∧ (codes i).toInt < 16)
    (r : Fin 4096) (k : Fin 14336) :
    Host.gather gather_S16_S4096x14336x1_S4096x14336_n_0_n_n_0_2_1 (table (F := Ideal))
        (broadcastInDim S4096x14336x1 ![0, 1] bcast_S4096x14336_S4096x14336x1_0_1 (wrapD codes)) (ix2 r k)
      = Cert.Spec.nf4 (codes (ix2 r k)) := by
  have e : broadcastInDim S4096x14336x1 ![0, 1] bcast_S4096x14336_S4096x14336x1_0_1 (wrapD codes) (takeIdx (ix2 r k))
      = codes (ix2 r k) := (bcastCodesD_apply _ r k).trans (wrapD_apply codes _ (hc _).1)
  have key : ∀ (c : BitVec 32) (hb : min c.toInt.toNat (16 - 1) < 16), c = codes (ix2 r k) →
      table (F := Ideal) (ix1 ⟨min c.toInt.toNat (16 - 1), hb⟩) = Cert.Spec.nf4 (codes (ix2 r k)) := by
    intro c hb h; subst h; exact table_code _ (hc _).1 (hc _).2 hb
  exact (gatherD_apply _ _ (by omega)).trans (key _ _ e)

/-- The down weight at `(r, k)` is the specification's dequantised weight there. -/
theorem deqD_apply (codes : IVec S4096x14336 32) (scale : FVec Ideal S4096x224 .f32)
    (hc : ∀ i, 0 ≤ (codes i).toInt ∧ (codes i).toInt < 16) (r : Fin 4096) (k : Fin 14336) :
    deqD (F := Ideal) codes scale (ix2 r k) = Cert.Spec.deq Cert.Spec.h14336 codes scale r k := by
  have hk : k.val = 64 * (k.val / 64) + k.val % 64 := by omega
  have hg : k.val / 64 < 224 := by have := k.isLt; omega
  have hm : k.val % 64 < 64 := by omega
  unfold deqD
  rw [flattenD_apply _ r k ⟨k.val / 64, hg⟩ ⟨k.val % 64, hm⟩ hk, mulf_apply,
    regroupD_apply _ r k ⟨k.val / 64, hg⟩ ⟨k.val % 64, hm⟩ hk, bcastScaleD_apply, lookupD_apply codes hc]
  rfl

open Idealize.ShloMosaic.StackMember in
/-- The product of `x` with the transposed weights at `(t, j)`: the sum over the 4096 inputs. -/
theorem proj_apply (x : FVec Ideal S2048x4096 .f32) (w : FVec Ideal S14336x4096 .f32) (t : Fin 2048) (j : Fin 14336) :
    proj (F := Ideal) x w (ix2 t j) = ∑ k : Fin 4096, x (ix2 t k) * w (ix2 j k) := by
  unfold proj
  have e : dot_S2048x4096_S4096x14336_S2048x14336_1_0_0_1_n_n = DotDims.plain 2048 4096 14336 := rfl
  rw [e, dotGeneral_plain_apply]
  refine Finset.sum_congr rfl fun k _ => ?_
  rw [transpose_ix2_apply]

open Idealize.ShloMosaic.StackMember in
/-- The product with the transposed down weights at `(t, d)`: the sum over the 14336 hidden columns. -/
theorem outer_apply (a : FVec Ideal S2048x14336 .f32) (w : FVec Ideal S4096x14336 .f32) (t : Fin 2048) (d : Fin 4096) :
    Host.dotGeneral dot_S2048x14336_S14336x4096_S2048x4096_1_0_0_1_n_n none a
        (transpose S14336x4096 [1, 0] w transposes_S4096x14336_S14336x4096_1_0) (ix2 t d)
      = ∑ j : Fin 14336, a (ix2 t j) * w (ix2 d j) := by
  have e : dot_S2048x14336_S14336x4096_S2048x4096_1_0_0_1_n_n = DotDims.plain 2048 14336 4096 := rfl
  rw [e, dotGeneral_plain_apply]
  refine Finset.sum_congr rfl fun j _ => ?_
  rw [transpose_ix2_apply]

/-- `a · (1 / (1 + exp (-a)))` at an entry is `a` times the logistic function of `a`. -/
theorem silu_apply (a : FVec Ideal S2048x14336 .f32) (i : S2048x14336.Idx) :
    silu (F := Ideal) a i = a i * Ideal.logistic (a i) := by
  unfold silu
  rw [mulf_apply, hostDivf_apply, addf_apply, broadcastInDim_scalar_apply, constant_apply, Ideal.ofBits_one_f32]
  rfl

/-- The specification's result at `(t, d)`. -/
theorem result_apply (x : FVec Ideal S2048x4096 .f32) (gc : IVec S14336x4096 32) (gs : FVec Ideal S14336x64 .f32)
    (uc : IVec S14336x4096 32) (us : FVec Ideal S14336x64 .f32) (dc : IVec S4096x14336 32) (ds : FVec Ideal S4096x224 .f32)
    (t : Fin 2048) (d : Fin 4096) :
    Cert.Spec.result x gc gs uc us dc ds (ix2 t d)
      = ∑ j : Fin 14336, Cert.Spec.hidden Cert.Spec.h4096 x gc gs uc us t j * Cert.Spec.deq Cert.Spec.h14336 dc ds d j :=
  rfl

/-- With every code in range, the reference's term is the specification's result. -/
theorem refOut_eq (x : FVec Ideal S2048x4096 .f32) (gc : IVec S14336x4096 32) (gs : FVec Ideal S14336x64 .f32)
    (uc : IVec S14336x4096 32) (us : FVec Ideal S14336x64 .f32) (dc : IVec S4096x14336 32) (ds : FVec Ideal S4096x224 .f32)
    (hg : ∀ i, 0 ≤ (gc i).toInt ∧ (gc i).toInt < 16) (hu : ∀ i, 0 ≤ (uc i).toInt ∧ (uc i).toInt < 16)
    (hd : ∀ i, 0 ≤ (dc i).toInt ∧ (dc i).toInt < 16) :
    refOut (F := Ideal) x gc gs uc us dc ds = Cert.Spec.result x gc gs uc us dc ds := by
  funext i
  obtain ⟨t, d, rfl⟩ : ∃ (t : Fin 2048) (d : Fin 4096), i = ix2 t d := ⟨i 0, i 1, eq_ix2 i⟩
  rw [result_apply]
  unfold refOut
  rw [outer_apply]
  refine Finset.sum_congr rfl fun j _ => ?_
  rw [deqD_apply dc ds hd, mulf_apply, silu_apply, proj_apply, proj_apply]
  unfold Cert.Spec.hidden
  simp only [deqGU_apply gc gs hg, deqGU_apply uc us hu]

end Cert.ReferenceIdeal.RefValue

end
-- ==== Proof.PreDecode.lean ====
/-
  Reading the precondition: where it holds, every entry of each of the three code arrays is, as a signed
  integer, at least 0 and below 16.
-/
import proofs.«429608_j4947802325695_1_alg».proof.Proof.Gen.Pre_finite_inputs
import Idealize.ShloMosaic.Lib.ReduceAll
import Idealize.ShloMosaic.Lib.StableHlo.Predicate
import Idealize.ShloMosaic.Lib.ValueIdx

noncomputable section

open scoped BigOperators

namespace Cert.PreDecode

open Cert.Pre_finite_inputs Cert.Pre_finite_inputs.Gen Idealize.ShloMosaic Idealize.ShloMosaic.ValueIdx

variable {F : FTy → Type} [FloatOps F]

/-- The scalar shape has one index. -/
instance subsingleton_S_ : Subsingleton S_.Idx := ⟨fun a b => funext fun d => d.elim0⟩

/-- One all-reduction of a range test, read back: if the conjunction over every index of "the word is at least 0 and
    below 16, signed" reduces to 1, then every word of the array is, as a signed integer, in [0, 16). The two bounds
    are scalar constants broadcast over the array, so each reads the constant at every index. -/
theorem range_of_all {s : Shape} {axes : List (Fin s.rank)} (hb : S_.BroadcastsInDim s (![] : Fin 0 → Fin s.rank))
    (hr : s.ReducesTo axes S_) (h0 : 0 < S_.numel) (a : IVec s 32)
    (e : Host.reduce IntOp.andi
        (andi (cmpi .sge a (broadcastInDim s ![] hb (constantI S_ 32 0#32)))
          (cmpi .slt a (broadcastInDim s ![] hb (constantI S_ 32 16#32))))
        (constantI S_ 1 1#1) hr h0 ix0 = 1#1) :
    ∀ i, 0 ≤ (a i).toInt ∧ (a i).toInt < 16 := by
  intro i
  have hi := Host.reduce_andi_all _ _ hr h0 ix0 e i
  have hi' : IntOp.andi (IntOp.cmpi .sge (a i) 0#32) (IntOp.cmpi .slt (a i) 16#32) = 1#1 := hi
  obtain ⟨h1, h2⟩ := IntOp.andi_eq_one.1 hi'
  rw [IntOp.cmpi_sge, show (0#32 : BitVec 32).toInt = 0 from by decide] at h1
  rw [IntOp.cmpi_slt, show (16#32 : BitVec 32).toInt = 16 from by decide] at h2
  exact ⟨h1, h2⟩

theorem codes_in_range (a0 : FVec F S2048x4096 .f32) (a1 : IVec S14336x4096 32) (a2 : FVec F S14336x64 .f32)
    (a3 : IVec S14336x4096 32) (a4 : FVec F S14336x64 .f32) (a5 : IVec S4096x14336 32) (a6 : FVec F S4096x224 .f32)
    (h : Cert.Pre_finite_inputs.fn (F := F) a0 a1 a2 a3 a4 a5 a6 = fun _ => 1#1) :
    (∀ i, 0 ≤ (a1 i).toInt ∧ (a1 i).toInt < 16) ∧ (∀ i, 0 ≤ (a3 i).toInt ∧ (a3 i).toInt < 16)
      ∧ (∀ i, 0 ≤ (a5 i).toInt ∧ (a5 i).toInt < 16) := by
  -- the predicate at its one index is a chain of conjunctions of seven all-reductions; the last three are the range tests
  have h0 := congrFun h ix0
  dsimp only [fn, fn_part1, fn_part2] at h0
  obtain ⟨h0, e5⟩ := IntOp.andi_eq_one.1 h0
  obtain ⟨h0, e3⟩ := IntOp.andi_eq_one.1 h0
  obtain ⟨h0, e1⟩ := IntOp.andi_eq_one.1 h0
  exact ⟨range_of_all _ _ _ a1 e1, range_of_all _ _ _ a3 e3, range_of_all _ _ _ a5 e5⟩

end Cert.PreDecode

end
-- ==== Proof.lean ====
/-
  The kernel computes a gated two-layer projection whose three weight matrices are stored as 4-bit codes into a
  sixteen-entry codebook with one scale per group of 64 columns. Over the extended reals both programs are
  the same sums: a weight is the codebook entry of its code times its group's scale, the hidden activation
  is `g · logistic g · u` for the two inner products `g`, `u` of a row of `x` with the gate and up weights, and
  the result is the inner product of the hidden row with a row of the down weights. The kernel selects the
  codebook entry by a chain of fifteen equality tests, the reference by indexing the table; these agree
  exactly where every code is one of 0, …, 15, which the precondition states.
-/
import proofs.«429608_j4947802325695_1_alg».proof.Defs
import proofs.«429608_j4947802325695_1_alg».proof.Proof.Gen.Kernel
import proofs.«429608_j4947802325695_1_alg».proof.Proof.Gen.Kernel.Frame
import proofs.«429608_j4947802325695_1_alg».proof.Proof.Gen.KernelIdeal
import proofs.«429608_j4947802325695_1_alg».proof.Proof.Gen.KernelIdeal.Frame
import proofs.«429608_j4947802325695_1_alg».proof.Proof.Gen.ReferenceIdeal
import proofs.«429608_j4947802325695_1_alg».proof.Proof.Gen.Pre_finite_inputs
import proofs.«429608_j4947802325695_1_alg».proof.Proof.KernelRun
import proofs.«429608_j4947802325695_1_alg».proof.Proof.KernelValue
import proofs.«429608_j4947802325695_1_alg».proof.Proof.RefRun
import proofs.«429608_j4947802325695_1_alg».proof.Proof.RefValue
import proofs.«429608_j4947802325695_1_alg».proof.Proof.PreDecode

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run (F := Ideal) m ρ)

/-- Both programs end with the specification's result of the arguments: the kernel by its two regions' arrays, the
    reference by its composed term, which is the specification where the codes are in range. -/
theorem algebraic : Cert.algebraic_KernelIdeal_ReferenceIdeal := by
  intro m ρ m' ρ' hpre hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.result_value m ρ c), (h c).2⟩)
      (Cert.KernelIdeal.KValue.run_named (F := Ideal) m ρ)
  · refine (θ_run Cert.ReferenceIdeal.defs _ _).mono (fun r h c => ⟨(h c).1.trans ?_, (h c).2⟩)
      (Cert.ReferenceIdeal.RefValue.run (F := Ideal) m' ρ')
    obtain ⟨hg, hu, hd⟩ := Cert.PreDecode.codes_in_range (F := Ideal) _ _ _ _ _ _ _ (hpre c)
    obtain ⟨e0, e1, e2, e3, e4, e5, e6⟩ := hagree c
    rw [e0, e1, e2, e3, e4, e5, e6]
    exact Cert.ReferenceIdeal.RefValue.refOut_eq _ _ _ _ _ _ _ hg hu hd

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
